-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x10000 : Shape := ⟨2, ![8, 10000]⟩
abbrev S5120000 : Shape := ⟨1, ![5120000]⟩
abbrev S100 : Shape := ⟨1, ![100]⟩
abbrev S_ : Shape := ⟨0, ![]⟩

class Facts : Prop where
  bcast_S_S5120000 : S_.BroadcastsInDim S5120000 (![] : Fin 0 → Fin S5120000.rank)
  reducesTo_S5120000_S_d0 : S5120000.ReducesTo [0] S_
  h_S_ : 0 < S_.numel
  bcast_S_S100 : S_.BroadcastsInDim S100 (![] : Fin 0 → Fin S100.rank)
  reducesTo_S100_S_d0 : S100.ReducesTo [0] S_

variable [Facts]

def fn_part1 {F : FTy → Type} [FloatOps F] (main_arg1 : IVec S5120000 32) (main_arg2 : IVec S5120000 32) (main_v13 : IVec S_ 1) (main_v15 : IVec S5120000 1) (main_c_5 : IVec S_ 32) : IVec S_ 1 :=
  let main_v16 : IVec S5120000 32 := broadcastInDim S5120000 ![] bcast_S_S5120000 main_c_5
  let main_v17 : IVec S5120000 1 := cmpi .slt main_arg1 main_v16
  let main_v18 : IVec S5120000 1 := andi main_v15 main_v17
  let main_c_6 : IVec S_ 1 := constantI S_ 1 1#1
  let main_v19 : IVec S_ 1 := (fun x v => Host.reduce IntOp.andi x v reducesTo_S5120000_S_d0 h_S_) main_v18 main_c_6
  let main_v20 : IVec S_ 1 := andi main_v13 main_v19
  let main_c_7 : IVec S_ 32 := constantI S_ 32 0#32
  let main_v21 : IVec S5120000 32 := broadcastInDim S5120000 ![] bcast_S_S5120000 main_c_7
  let main_v22 : IVec S5120000 1 := cmpi .sge main_arg2 main_v21
  let main_c_8 : IVec S_ 32 := constantI S_ 32 10000#32
  let main_v23 : IVec S5120000 32 := broadcastInDim S5120000 ![] bcast_S_S5120000 main_c_8
  let main_v24 : IVec S5120000 1 := cmpi .slt main_arg2 main_v23
  let main_v25 : IVec S5120000 1 := andi main_v22 main_v24
  let main_c_9 : IVec S_ 1 := constantI S_ 1 1#1
  let main_v26 : IVec S_ 1 := (fun x v => Host.reduce IntOp.andi x v reducesTo_S5120000_S_d0 h_S_) main_v25 main_c_9
  let main_v27 : IVec S_ 1 := andi main_v20 main_v26
  main_v27

def fn {F : FTy → Type} [FloatOps F] (main_arg0 : IVec S8x10000 32) (main_arg1 : IVec S5120000 32) (main_arg2 : IVec S5120000 32) (main_arg3 : IVec S5120000 32) (main_arg4 : FVec F S5120000 .f32) (main_arg5 : FVec F S100 .f32) (main_arg6 : FVec F S100 .f32) : IVec S_ 1 :=
  let main_v0 : FVec F S5120000 .f32 := Host.absf main_arg4
  let main_cst : FVec F S_ .f32 := constant S_ .f32 0x7F800000#32
  let main_v1 : FVec F S5120000 .f32 := broadcastInDim S5120000 ![] bcast_S_S5120000 main_cst
  let main_v2 : IVec S5120000 1 := cmpf .olt main_v0 main_v1
  let main_c : IVec S_ 1 := constantI S_ 1 1#1
  let main_v3 : IVec S_ 1 := (fun x v => Host.reduce IntOp.andi x v reducesTo_S5120000_S_d0 h_S_) main_v2 main_c
  let main_v4 : FVec F S100 .f32 := Host.absf main_arg5
  let main_cst_0 : FVec F S_ .f32 := constant S_ .f32 0x7F800000#32
  let main_v5 : FVec F S100 .f32 := broadcastInDim S100 ![] bcast_S_S100 main_cst_0
  let main_v6 : IVec S100 1 := cmpf .olt main_v4 main_v5
  let main_c_1 : IVec S_ 1 := constantI S_ 1 1#1
  let main_v7 : IVec S_ 1 := (fun x v => Host.reduce IntOp.andi x v reducesTo_S100_S_d0 h_S_) main_v6 main_c_1
  let main_v8 : IVec S_ 1 := andi main_v3 main_v7
  let main_v9 : FVec F S100 .f32 := Host.absf main_arg6
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_c_4 : IVec S_ 32 := constantI S_ 32 0#32
  let main_v14 : IVec S5120000 32 := broadcastInDim S5120000 ![] bcast_S_S5120000 main_c_4
  let main_v15 : IVec S5120000 1 := cmpi .sge main_arg1 main_v14
  let main_c_5 : IVec S_ 32 := constantI S_ 32 8#32
  fn_part1 (F := F) main_arg1 main_arg2 main_v13 main_v15 main_c_5
-- ==== Kernel.lean ====
abbrev S8x10000 : Shape := ⟨2, ![8, 10000]⟩
abbrev S5120000 : Shape := ⟨1, ![5120000]⟩
abbrev S100 : Shape := ⟨1, ![100]⟩
abbrev S_ : Shape := ⟨0, ![]⟩
abbrev S5120000x1 : Shape := ⟨2, ![5120000, 1]⟩
abbrev S5120000x2 : Shape := ⟨2, ![5120000, 2]⟩
abbrev S40000x128 : Shape := ⟨2, ![40000, 128]⟩
abbrev S2x1x8 : Shape := ⟨3, ![2, 1, 8]⟩
abbrev S5000x128 : Shape := ⟨2, ![5000, 128]⟩
abbrev S1x1x8 : Shape := ⟨3, ![1, 1, 8]⟩
abbrev S8x128 : Shape := ⟨2, ![8, 128]⟩
abbrev S128 : Shape := ⟨1, ![128]⟩
abbrev S1x128 : Shape := ⟨2, ![1, 128]⟩
abbrev S8 : Shape := ⟨1, ![8]⟩
abbrev S2x8 : Shape := ⟨2, ![2, 8]⟩

abbrev nBuf : Space → Nat
  | .hbm => 89
  | .vmem => 11
  | .smem => 0
  | _ => 0

abbrev bufTy : (tb : Table) → Fin (tcTables nBuf tb) → BufTy
  | .hbm, ⟨0, _⟩ => ⟨S8x10000, .i32⟩
  | .hbm, ⟨1, _⟩ => ⟨S5120000, .i32⟩
  | .hbm, ⟨2, _⟩ => ⟨S5120000, .i32⟩
  | .hbm, ⟨3, _⟩ => ⟨S5120000, .i32⟩
  | .hbm, ⟨4, _⟩ => ⟨S5120000, .f32⟩
  | .hbm, ⟨5, _⟩ => ⟨S100, .f32⟩
  | .hbm, ⟨6, _⟩ => ⟨S100, .f32⟩
  | .hbm, ⟨7, _⟩ => ⟨S_, .i32⟩
  | .hbm, ⟨8, _⟩ => ⟨S5120000, .i32⟩
  | .hbm, ⟨9, _⟩ => ⟨S5120000, .i1⟩
  | .hbm, ⟨10, _⟩ => ⟨S_, .i32⟩
  | .hbm, ⟨11, _⟩ => ⟨S5120000, .i32⟩
  | .hbm, ⟨12, _⟩ => ⟨S5120000, .i32⟩
  | .hbm, ⟨13, _⟩ => ⟨S5120000, .i32⟩
  | .hbm, ⟨14, _⟩ => ⟨S_, .i32⟩
  | .hbm, ⟨15, _⟩ => ⟨S5120000, .i32⟩
  | .hbm, ⟨16, _⟩ => ⟨S5120000, .i1⟩
  | .hbm, ⟨17, _⟩ => ⟨S_, .i32⟩
  | .hbm, ⟨18, _⟩ => ⟨S5120000, .i32⟩
  | .hbm, ⟨19, _⟩ => ⟨S5120000, .i32⟩
  | .hbm, ⟨20, _⟩ => ⟨S5120000, .i32⟩
  | .hbm, ⟨21, _⟩ => ⟨S5120000x1, .i32⟩
  | .hbm, ⟨22, _⟩ => ⟨S5120000x1, .i32⟩
  | .hbm, ⟨23, _⟩ => ⟨S5120000x2, .i32⟩
  | .hbm, ⟨24, _⟩ => ⟨S5120000, .i32⟩
  | .hbm, ⟨25, _⟩ => ⟨S_, .i32⟩
  | .hbm, ⟨26, _⟩ => ⟨S5120000, .i32⟩
  | .hbm, ⟨27, _⟩ => ⟨S5120000, .i1⟩
  | .hbm, ⟨28, _⟩ => ⟨S_, .i32⟩
  | .hbm, ⟨29, _⟩ => ⟨S5120000, .i32⟩
  | .hbm, ⟨30, _⟩ => ⟨S5120000, .i32⟩
  | .hbm, ⟨31, _⟩ => ⟨S5120000, .i32⟩
  | .hbm, ⟨32, _⟩ => ⟨S_, .i32⟩
  | .hbm, ⟨33, _⟩ => ⟨S5120000, .i32⟩
  | .hbm, ⟨34, _⟩ => ⟨S5120000, .i1⟩
  | .hbm, ⟨35, _⟩ => ⟨S_, .i32⟩
  | .hbm, ⟨36, _⟩ => ⟨S5120000, .i32⟩
  | .hbm, ⟨37, _⟩ => ⟨S5120000, .i32⟩
  | .hbm, ⟨38, _⟩ => ⟨S5120000, .i32⟩
  | .hbm, ⟨39, _⟩ => ⟨S5120000x1, .i32⟩
  | .hbm, ⟨40, _⟩ => ⟨S5120000x1, .i32⟩
  | .hbm, ⟨41, _⟩ => ⟨S5120000x2, .i32⟩
  | .hbm, ⟨42, _⟩ => ⟨S5120000, .i32⟩
  | .hbm, ⟨43, _⟩ => ⟨S_, .i32⟩
  | .hbm, ⟨44, _⟩ => ⟨S5120000, .i32⟩
  | .hbm, ⟨45, _⟩ => ⟨S5120000, .i1⟩
  | .hbm, ⟨46, _⟩ => ⟨S_, .i32⟩
  | .hbm, ⟨47, _⟩ => ⟨S5120000, .i32⟩
  | .hbm, ⟨48, _⟩ => ⟨S5120000, .i32⟩
  | .hbm, ⟨49, _⟩ => ⟨S5120000, .i32⟩
  | .hbm, ⟨50, _⟩ => ⟨S5120000x1, .i32⟩
  | .hbm, ⟨51, _⟩ => ⟨S5120000, .f32⟩
  | .hbm, ⟨52, _⟩ => ⟨S_, .i32⟩
  | .hbm, ⟨53, _⟩ => ⟨S5120000, .i32⟩
  | .hbm, ⟨54, _⟩ => ⟨S5120000, .i1⟩
  | .hbm, ⟨55, _⟩ => ⟨S_, .i32⟩
  | .hbm, ⟨56, _⟩ => ⟨S5120000, .i32⟩
  | .hbm, ⟨57, _⟩ => ⟨S5120000, .i32⟩
  | .hbm, ⟨58, _⟩ => ⟨S5120000, .i32⟩
  | .hbm, ⟨59, _⟩ => ⟨S5120000x1, .i32⟩
  | .hbm, ⟨60, _⟩ => ⟨S5120000, .f32⟩
  | .hbm, ⟨61, _⟩ => ⟨S5120000, .f32⟩
  | .hbm, ⟨62, _⟩ => ⟨S40000x128, .f32⟩
  | .hbm, ⟨63, _⟩ => ⟨S_, .i32⟩
  | .hbm, ⟨64, _⟩ => ⟨S5120000, .i32⟩
  | .hbm, ⟨65, _⟩ => ⟨S5120000, .i1⟩
  | .hbm, ⟨66, _⟩ => ⟨S_, .i32⟩
  | .hbm, ⟨67, _⟩ => ⟨S5120000, .i32⟩
  | .hbm, ⟨68, _⟩ => ⟨S5120000, .i32⟩
  | .hbm, ⟨69, _⟩ => ⟨S5120000, .i32⟩
  | .hbm, ⟨70, _⟩ => ⟨S5120000x1, .i32⟩
  | .hbm, ⟨71, _⟩ => ⟨S5120000, .f32⟩
  | .hbm, ⟨72, _⟩ => ⟨S_, .i32⟩
  | .hbm, ⟨73, _⟩ => ⟨S5120000, .i32⟩
  | .hbm, ⟨74, _⟩ => ⟨S5120000, .i1⟩
  | .hbm, ⟨75, _⟩ => ⟨S_, .i32⟩
  | .hbm, ⟨76, _⟩ => ⟨S5120000, .i32⟩
  | .hbm, ⟨77, _⟩ => ⟨S5120000, .i32⟩
  | .hbm, ⟨78, _⟩ => ⟨S5120000, .i32⟩
  | .hbm, ⟨79, _⟩ => ⟨S5120000x1, .i32⟩
  | .hbm, ⟨80, _⟩ => ⟨S5120000, .f32⟩
  | .hbm, ⟨81, _⟩ => ⟨S5120000, .f32⟩
  | .hbm, ⟨82, _⟩ => ⟨S40000x128, .f32⟩
  | .hbm, ⟨83, _⟩ => ⟨S40000x128, .i32⟩
  | .hbm, ⟨84, _⟩ => ⟨S40000x128, .f32⟩
  | .hbm, ⟨85, _⟩ => ⟨S2x1x8, .f32⟩
  | .hbm, ⟨86, _⟩ => ⟨S2x8, .f32⟩
  | .hbm, ⟨87, _⟩ => ⟨S_, .f32⟩
  | .hbm, ⟨88, _⟩ => ⟨S8, .f32⟩
  | .local _ .vmem, ⟨0, _⟩ => ⟨S5000x128, .i32⟩
  | .local _ .vmem, ⟨1, _⟩ => ⟨S5000x128, .i32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S1x1x8, .f32⟩
  | .local _ .vmem, ⟨9, _⟩ => ⟨S1x1x8, .f32⟩
  | .local _ .vmem, ⟨10, _⟩ => ⟨S8x128, .f32⟩
  | _, _ => ⟨S8x10000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_9 : Ref sig .tc := ⟨.hbm, 52, rfl⟩
abbrev main_v35 : Ref sig .tc := ⟨.hbm, 53, rfl⟩
abbrev main_v36 : Ref sig .tc := ⟨.hbm, 54, rfl⟩
abbrev main_c_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_11 : Ref sig .tc := ⟨.hbm, 63, rfl⟩
abbrev main_v44 : Ref sig .tc := ⟨.hbm, 64, rfl⟩
abbrev main_v45 : Ref sig .tc := ⟨.hbm, 65, rfl⟩
abbrev main_c_12 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_13 : Ref sig .tc := ⟨.hbm, 72, rfl⟩
abbrev main_v51 : Ref sig .tc := ⟨.hbm, 73, rfl⟩
abbrev main_v52 : Ref sig .tc := ⟨.hbm, 74, rfl⟩
abbrev main_c_14 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32_50 : BitVec 32 := 3#32
  let v106 : BitVec 1 := Scalar.cmpi .eq arg1 c3_i32_50
  let v107 : BitVec 32 := Scalar.extui v106
  let c0_i32_51 : BitVec 32 := 0#32
  let v108 : BitVec 1 := Scalar.cmpi .ne v107 c0_i32_51
  v108

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S5120000 : S_.BroadcastsInDim S5120000 (![] : Fin 0 → Fin S5120000.rank)
  bcast_S5120000_S5120000x1_0 : S5120000.BroadcastsInDim S5120000x1 (![0] : Fin 1 → Fin S5120000x1.rank)
  concatenates_S5120000x1_S5120000x1_S5120000x2_d1 : Shape.Concatenates [S5120000x1, S5120000x1] S5120000x2 1
  shapeCasts_S5120000_S40000x128 : S5120000.ShapeCasts S40000x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S128 : S5000x128.Reduces [0] S128
  inb_S8x128_S1x128_0_0 : ∀ a, (![0, 0] : Fin 2 → Nat) a + S1x128.size a ≤ S8x128.size a
  h_S1x128 : 0 < S1x128.numel
  shapeCasts_S1x128_S128 : S1x128.ShapeCasts S128
  shapeCasts_S128_S1x128 : S128.ShapeCasts S1x128
  inb_S8x128_S1x128_1_0 : ∀ a, (![1, 0] : Fin 2 → Nat) a + S1x128.size a ≤ S8x128.size a
  inb_S8x128_S1x128_2_0 : ∀ a, (![2, 0] : Fin 2 → Nat) a + S1x128.size a ≤ S8x128.size a
  inb_S8x128_S1x128_3_0 : ∀ a, (![3, 0] : Fin 2 → Nat) a + S1x128.size a ≤ S8x128.size a
  inb_S8x128_S1x128_4_0 : ∀ a, (![4, 0] : Fin 2 → Nat) a + S1x128.size a ≤ S8x128.size a
  inb_S8x128_S1x128_5_0 : ∀ a, (![5, 0] : Fin 2 → Nat) a + S1x128.size a ≤ S8x128.size a
  inb_S8x128_S1x128_6_0 : ∀ a, (![6, 0] : Fin 2 → Nat) a + S1x128.size a ≤ S8x128.size a
  inb_S8x128_S1x128_7_0 : ∀ a, (![7, 0] : Fin 2 → Nat) a + S1x128.size a ≤ S8x128.size a
  reduces_S8x128_S8 : S8x128.Reduces [1] S8
  inb_S1x1x8_S1x1x8_0_0_0 : ∀ a, (![0, 0, 0] : Fin 3 → Nat) a + S1x1x8.size a ≤ S1x1x8.size a
  h_S1x1x8 : 0 < S1x1x8.numel
  shapeCasts_S1x1x8_S8 : S1x1x8.ShapeCasts S8
  shapeCasts_S8_S1x1x8 : S8.ShapeCasts S1x1x8
  shapeCasts_S2x1x8_S2x8 : S2x1x8.ShapeCasts S2x8
  reducesTo_S2x8_S8_d0 : S2x8.ReducesTo [0] S8
  h_S_ : 0 < S_.numel
  gather_S8x10000_S5120000x2_S5120000_n_01_n_n_01_1_11_wf : GatherDims.WF S8x10000 S5120000x2 S5120000 [] [0, 1] [] [0, 1] [] 1 ![1, 1]
  gather_S100_S5120000x1_S5120000_n_0_n_n_0_1_1_wf : GatherDims.WF S100 S5120000x1 S5120000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .i32 = 32 ∨ (Rect.block (s := S40000x128) S5000x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S40000x128.size a
  hwx0_1 : ∀ i : grid0.Coords, EltTy.bits .f32 = 32 ∨ (Rect.block (s := S40000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S40000x128.size a
  hwx0_2 : ∀ i : grid0.Coords, EltTy.bits .f32 = 32 ∨ (Rect.block (s := S40000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S40000x128.size a
  hwx0_3 : ∀ i : grid0.Coords, EltTy.bits .f32 = 32 ∨ (Rect.block (s := S40000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x8.size a ≤ S2x1x8.size a
  hwx0_4 : ∀ i : grid0.Coords, EltTy.bits .f32 = 32 ∨ (Rect.block (s := S2x1x8) S1x1x8.size (cc0_transform_4 i) (hinb0_4 i)).WholeWords (EltTy.packing .f32)

variable [Facts₀]

def gather_S8x10000_S5120000x2_S5120000_n_01_n_n_01_1_11 : GatherDims S8x10000 S5120000x2 S5120000 where
  offsetDims := []
  collapsedSliceDims := [0, 1]
  operandBatchingDims := []
  startIndicesBatchingDims := []
  startIndexMap := [0, 1]
  indexVectorDim := 1
  sliceSizes := ![1, 1]
  wf := gather_S8x10000_S5120000x2_S5120000_n_01_n_n_01_1_11_wf
def gather_S100_S5120000x1_S5120000_n_0_n_n_0_1_1 : GatherDims S100 S5120000x1 S5120000 where
  offsetDims := []
  collapsedSliceDims := [0]
  operandBatchingDims := []
  startIndicesBatchingDims := []
  startIndexMap := [0]
  indexVectorDim := 1
  sliceSizes := ![1]
  wf := gather_S100_S5120000x1_S5120000_n_0_n_n_0_1_1_wf

abbrev win0_0 : Pipeline.Window sig grid0 :=
  Pipeline.Window.ofSpec (Memref.whole main_v60) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v59) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v61) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v62) S1x1x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x10000 : Shape := ⟨2, ![8, 10000]⟩
abbrev S5120000 : Shape := ⟨1, ![5120000]⟩
abbrev S100 : Shape := ⟨1, ![100]⟩
abbrev S_ : Shape := ⟨0, ![]⟩
abbrev S5120000x1 : Shape := ⟨2, ![5120000, 1]⟩
abbrev S5120000x2 : Shape := ⟨2, ![5120000, 2]⟩
abbrev S80000 : Shape := ⟨1, ![80000]⟩
abbrev S8 : Shape := ⟨1, ![8]⟩

abbrev nBuf : Space → Nat
  | .hbm => 100
  | .vmem => 0
  | .smem => 0
  | _ => 0

abbrev bufTy : (tb : Table) → Fin (tcTables nBuf tb) → BufTy
  | .hbm, ⟨0, _⟩ => ⟨S8x10000, .i32⟩
  | .hbm, ⟨1, _⟩ => ⟨S5120000, .i32⟩
  | .hbm, ⟨2, _⟩ => ⟨S5120000, .i32⟩
  | .hbm, ⟨3, _⟩ => ⟨S5120000, .i32⟩
  | .hbm, ⟨4, _⟩ => ⟨S5120000, .f32⟩
  | .hbm, ⟨5, _⟩ => ⟨S100, .f32⟩
  | .hbm, ⟨6, _⟩ => ⟨S100, .f32⟩
  | .hbm, ⟨7, _⟩ => ⟨S_, .i32⟩
  | .hbm, ⟨8, _⟩ => ⟨S5120000, .i32⟩
  | .hbm, ⟨9, _⟩ => ⟨S5120000, .i1⟩
  | .hbm, ⟨10, _⟩ => ⟨S_, .i32⟩
  | .hbm, ⟨11, _⟩ => ⟨S5120000, .i32⟩
  | .hbm, ⟨12, _⟩ => ⟨S5120000, .i32⟩
  | .hbm, ⟨13, _⟩ => ⟨S5120000, .i32⟩
  | .hbm, ⟨14, _⟩ => ⟨S_, .i32⟩
  | .hbm, ⟨15, _⟩ => ⟨S5120000, .i32⟩
  | .hbm, ⟨16, _⟩ => ⟨S5120000, .i1⟩
  | .hbm, ⟨17, _⟩ => ⟨S_, .i32⟩
  | .hbm, ⟨18, _⟩ => ⟨S5120000, .i32⟩
  | .hbm, ⟨19, _⟩ => ⟨S5120000, .i32⟩
  | .hbm, ⟨20, _⟩ => ⟨S5120000, .i32⟩
  | .hbm, ⟨21, _⟩ => ⟨S5120000x1, .i32⟩
  | .hbm, ⟨22, _⟩ => ⟨S5120000x1, .i32⟩
  | .hbm, ⟨23, _⟩ => ⟨S5120000x2, .i32⟩
  | .hbm, ⟨24, _⟩ => ⟨S5120000, .i32⟩
  | .hbm, ⟨25, _⟩ => ⟨S_, .i32⟩
  | .hbm, ⟨26, _⟩ => ⟨S5120000, .i32⟩
  | .hbm, ⟨27, _⟩ => ⟨S5120000, .i1⟩
  | .hbm, ⟨28, _⟩ => ⟨S_, .i32⟩
  | .hbm, ⟨29, _⟩ => ⟨S5120000, .i32⟩
  | .hbm, ⟨30, _⟩ => ⟨S5120000, .i32⟩
  | .hbm, ⟨31, _⟩ => ⟨S5120000, .i32⟩
  | .hbm, ⟨32, _⟩ => ⟨S_, .i32⟩
  | .hbm, ⟨33, _⟩ => ⟨S5120000, .i32⟩
  | .hbm, ⟨34, _⟩ => ⟨S5120000, .i1⟩
  | .hbm, ⟨35, _⟩ => ⟨S_, .i32⟩
  | .hbm, ⟨36, _⟩ => ⟨S5120000, .i32⟩
  | .hbm, ⟨37, _⟩ => ⟨S5120000, .i32⟩
  | .hbm, ⟨38, _⟩ => ⟨S5120000, .i32⟩
  | .hbm, ⟨39, _⟩ => ⟨S5120000x1, .i32⟩
  | .hbm, ⟨40, _⟩ => ⟨S5120000x1, .i32⟩
  | .hbm, ⟨41, _⟩ => ⟨S5120000x2, .i32⟩
  | .hbm, ⟨42, _⟩ => ⟨S5120000, .i32⟩
  | .hbm, ⟨43, _⟩ => ⟨S5120000, .f32⟩
  | .hbm, ⟨44, _⟩ => ⟨S_, .i32⟩
  | .hbm, ⟨45, _⟩ => ⟨S5120000, .i32⟩
  | .hbm, ⟨46, _⟩ => ⟨S5120000, .i1⟩
  | .hbm, ⟨47, _⟩ => ⟨S_, .i32⟩
  | .hbm, ⟨48, _⟩ => ⟨S5120000, .i32⟩
  | .hbm, ⟨49, _⟩ => ⟨S5120000, .i32⟩
  | .hbm, ⟨50, _⟩ => ⟨S5120000, .i32⟩
  | .hbm, ⟨51, _⟩ => ⟨S5120000x1, .i32⟩
  | .hbm, ⟨52, _⟩ => ⟨S5120000, .f32⟩
  | .hbm, ⟨53, _⟩ => ⟨S_, .i32⟩
  | .hbm, ⟨54, _⟩ => ⟨S5120000, .i32⟩
  | .hbm, ⟨55, _⟩ => ⟨S5120000, .i1⟩
  | .hbm, ⟨56, _⟩ => ⟨S_, .i32⟩
  | .hbm, ⟨57, _⟩ => ⟨S5120000, .i32⟩
  | .hbm, ⟨58, _⟩ => ⟨S5120000, .i32⟩
  | .hbm, ⟨59, _⟩ => ⟨S5120000, .i32⟩
  | .hbm, ⟨60, _⟩ => ⟨S5120000x1, .i32⟩
  | .hbm, ⟨61, _⟩ => ⟨S5120000, .f32⟩
  | .hbm, ⟨62, _⟩ => ⟨S5120000, .f32⟩
  | .hbm, ⟨63, _⟩ => ⟨S_, .i32⟩
  | .hbm, ⟨64, _⟩ => ⟨S5120000, .i32⟩
  | .hbm, ⟨65, _⟩ => ⟨S5120000, .i1⟩
  | .hbm, ⟨66, _⟩ => ⟨S_, .i32⟩
  | .hbm, ⟨67, _⟩ => ⟨S5120000, .i32⟩
  | .hbm, ⟨68, _⟩ => ⟨S5120000, .i32⟩
  | .hbm, ⟨69, _⟩ => ⟨S5120000, .i32⟩
  | .hbm, ⟨70, _⟩ => ⟨S5120000x1, .i32⟩
  | .hbm, ⟨71, _⟩ => ⟨S5120000, .f32⟩
  | .hbm, ⟨72, _⟩ => ⟨S_, .i32⟩
  | .hbm, ⟨73, _⟩ => ⟨S5120000, .i32⟩
  | .hbm, ⟨74, _⟩ => ⟨S5120000, .i1⟩
  | .hbm, ⟨75, _⟩ => ⟨S_, .i32⟩
  | .hbm, ⟨76, _⟩ => ⟨S5120000, .i32⟩
  | .hbm, ⟨77, _⟩ => ⟨S5120000, .i32⟩
  | .hbm, ⟨78, _⟩ => ⟨S5120000, .i32⟩
  | .hbm, ⟨79, _⟩ => ⟨S5120000x1, .i32⟩
  | .hbm, ⟨80, _⟩ => ⟨S5120000, .f32⟩
  | .hbm, ⟨81, _⟩ => ⟨S5120000, .f32⟩
  | .hbm, ⟨82, _⟩ => ⟨S5120000, .i1⟩
  | .hbm, ⟨83, _⟩ => ⟨S5120000, .f32⟩
  | .hbm, ⟨84, _⟩ => ⟨S5120000, .f32⟩
  | .hbm, ⟨85, _⟩ => ⟨S5120000, .f32⟩
  | .hbm, ⟨86, _⟩ => ⟨S_, .f32⟩
  | .hbm, ⟨87, _⟩ => ⟨S5120000, .f32⟩
  | .hbm, ⟨88, _⟩ => ⟨S5120000, .f32⟩
  | .hbm, ⟨89, _⟩ => ⟨S_, .i32⟩
  | .hbm, ⟨90, _⟩ => ⟨S5120000, .i32⟩
  | .hbm, ⟨91, _⟩ => ⟨S5120000, .i32⟩
  | .hbm, ⟨92, _⟩ => ⟨S5120000, .i32⟩
  | .hbm, ⟨93, _⟩ => ⟨S_, .f32⟩
  | .hbm, ⟨94, _⟩ => ⟨S80000, .f32⟩
  | .hbm, ⟨95, _⟩ => ⟨S5120000x1, .i32⟩
  | .hbm, ⟨96, _⟩ => ⟨S80000, .f32⟩
  | .hbm, ⟨97, _⟩ => ⟨S8x10000, .f32⟩
  | .hbm, ⟨98, _⟩ => ⟨S_, .f32⟩
  | .hbm, ⟨99, _⟩ => ⟨S8, .f32⟩
  | _, _ => ⟨S8x10000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_9 : Ref sig .tc := ⟨.hbm, 53, rfl⟩
abbrev main_v36 : Ref sig .tc := ⟨.hbm, 54, rfl⟩
abbrev main_v37 : Ref sig .tc := ⟨.hbm, 55, rfl⟩
abbrev main_c_10 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_11 : Ref sig .tc := ⟨.hbm, 63, rfl⟩
abbrev main_v44 : Ref sig .tc := ⟨.hbm, 64, rfl⟩
abbrev main_v45 : Ref sig .tc := ⟨.hbm, 65, rfl⟩
abbrev main_c_12 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_13 : Ref sig .tc := ⟨.hbm, 72, rfl⟩
abbrev main_v51 : Ref sig .tc := ⟨.hbm, 73, rfl⟩
abbrev main_v52 : Ref sig .tc := ⟨.hbm, 74, rfl⟩
abbrev main_c_14 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst : Ref sig .tc := ⟨.hbm, 86, rfl⟩
abbrev main_call0_v0 : Ref sig .tc := ⟨.hbm, 87, rfl⟩
abbrev main_v63 : Ref sig .tc := ⟨.hbm, 88, rfl⟩
abbrev main_c_15 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_16 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_17 : Ref sig .tc := ⟨.hbm, 98, rfl⟩
abbrev main_v71 : Ref sig .tc := ⟨.hbm, 99, rfl⟩

abbrev nD : Nat := 1
abbrev τ : Topo := Topo.v7x

variable {F : FTy → Type} [FloatOps F]

class Facts₀ : Prop where
  bcast_S_S5120000 : S_.BroadcastsInDim S5120000 (![] : Fin 0 → Fin S5120000.rank)
  bcast_S5120000_S5120000x1_0 : S5120000.BroadcastsInDim S5120000x1 (![0] : Fin 1 → Fin S5120000x1.rank)
  concatenates_S5120000x1_S5120000x1_S5120000x2_d1 : Shape.Concatenates [S5120000x1, S5120000x1] S5120000x2 1
  bcast_S_S80000 : S_.BroadcastsInDim S80000 (![] : Fin 0 → Fin S80000.rank)
  shapeCasts_S80000_S8x10000 : S80000.ShapeCasts S8x10000
  reducesTo_S8x10000_S8_d1 : S8x10000.ReducesTo [1] S8
  h_S_ : 0 < S_.numel
  gather_S8x10000_S5120000x2_S5120000_n_01_n_n_01_1_11_wf : GatherDims.WF S8x10000 S5120000x2 S5120000 [] [0, 1] [] [0, 1] [] 1 ![1, 1]
  gather_S100_S5120000x1_S5120000_n_0_n_n_0_1_1_wf : GatherDims.WF S100 S5120000x1 S5120000 [] [0] [] [0] [] 1 ![1]
  scatter_S80000_S5120000x1_S5120000_n_0_0_1_wf : ScatterDims.WF S80000 S5120000x1 S5120000 [] [0] [0] 1

variable [Facts₀]

def gather_S8x10000_S5120000x2_S5120000_n_01_n_n_01_1_11 : GatherDims S8x10000 S5120000x2 S5120000 where
  offsetDims := []
  collapsedSliceDims := [0, 1]
  operandBatchingDims := []
  startIndicesBatchingDims := []
  startIndexMap := [0, 1]
  indexVectorDim := 1
  sliceSizes := ![1, 1]
  wf := gather_S8x10000_S5120000x2_S5120000_n_01_n_n_01_1_11_wf
def gather_S100_S5120000x1_S5120000_n_0_n_n_0_1_1 : GatherDims S100 S5120000x1 S5120000 where
  offsetDims := []
  collapsedSliceDims := [0]
  operandBatchingDims := []
  startIndicesBatchingDims := []
  startIndexMap := [0]
  indexVectorDim := 1
  sliceSizes := ![1]
  wf := gather_S100_S5120000x1_S5120000_n_0_n_n_0_1_1_wf
def scatter_S80000_S5120000x1_S5120000_n_0_0_1 : ScatterDims S80000 S5120000x1 S5120000 where
  updateWindowDims := []
  insertedWindowDims := [0]
  scatterDimsToOperandDims := [0]
  indexVectorDim := 1
  wf := scatter_S80000_S5120000x1_S5120000_n_0_0_1_wf

class Facts : Prop extends Facts₀ where

variable [Facts]
-- ==== Proof.Spec.lean ====
import Idealize.ShloMosaic.PureOps.Ideal
import Idealize.ShloMosaic.Lib.ValueIdx

/-!
The common value of the two programs.  Every edge `e` carries a molecule word `en e`, a force constant
`KK e`, a contact radius `RR e` and a squared distance `sod e`.  With `dis = √sod` the edge's penalty is
`KK · (dis − RR) · (dis − RR)` when `dis < RR` and zero otherwise, and the energy of molecule `n` is the sum
of the penalties of the edges whose molecule word is `n`.
-/

noncomputable section

namespace ClosePenalty

open Idealize.ShloMosaic Idealize.ShloMosaic.ValueIdx

/-- The edge axis. -/
abbrev SE : Shape := ⟨1, ![5120000]⟩

/-- One edge's penalty from its force constant, contact radius and squared distance. -/
def pen (kk rad sod : EReal) : EReal :=
  Scalar.select (FloatOps.cmpf (F := Ideal) (φ := .f32) .olt (Ideal.sqrt sod) rad)
    (FloatOps.mulf (F := Ideal) (φ := .f32)
      (FloatOps.mulf (F := Ideal) (φ := .f32) kk (FloatOps.subf (F := Ideal) (φ := .f32) (Ideal.sqrt sod) rad))
      (FloatOps.subf (F := Ideal) (φ := .f32) (Ideal.sqrt sod) rad))
    (0 : EReal)

/-- Edge `e`'s contribution to molecule `n`: its penalty when its molecule word is `n`, zero otherwise. -/
def term (en : IVec SE 32) (KK RR sod : SE.Idx → EReal) (n : Fin 8) (e : SE.Idx) : EReal :=
  if en e = BitVec.ofNat 32 n.val then pen (KK e) (RR e) (sod e) else 0

/-- The energy of molecule `n`: the sum of its edges' penalties. -/
def molE (en : IVec SE 32) (KK RR sod : SE.Idx → EReal) (n : Fin 8) : EReal :=
  ∑ e : SE.Idx, term en KK RR sod n e

end ClosePenalty

end
-- ==== Proof.KernelTile.lean ====
import proofs.«426004_j59304908423819_3_alg».proof.Proof.Gen.KernelIdeal.Skeleton
import proofs.«426004_j59304908423819_3_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

/-!
The kernel body's arithmetic on one tile of 5000 × 128 edges, read over the extended reals.
The body forms the tile's penalties, and for each molecule `nb` adds to row `nb` of an 8 × 128 accumulator the
column sums of the penalties masked by "the edge's molecule word is `nb`".  At the last tile of a core it sums each
accumulator row over its 128 lanes.
-/

noncomputable section

namespace ClosePenalty.Tile

open Idealize.ShloMosaic Idealize.ShloMosaic.ValueIdx Cert.KernelIdeal Cert.KernelIdeal.Gen

/-- The penalties of a tile's edges. -/
def tilePen (kk rad sod : Vec Ideal S5000x128 .f32) : FVec Ideal S5000x128 .f32 :=
  fun j => ClosePenalty.pen (kk j) (rad j) (sod j)

/-- Lane `l`'s sum, over the tile's rows, of the values `p` of the edges whose molecule word is `nb`. -/
def tileSum (nb : BitVec 32) (en : IVec S5000x128 32) (p : FVec Ideal S5000x128 .f32) (l : Fin 128) : EReal :=
  ∑ r : Fin 5000, if en (ix2 r l) = nb then p (ix2 r l) else 0

theorem pay4_eq (en : Vec Ideal S5000x128 .i32) : k0_pay4 (F := Ideal) en = en :=
  shapeCast_self _ _

theorem pay5_eq (kk rad sod : Vec Ideal S5000x128 .f32) : k0_pay5 (F := Ideal) kk rad sod = tilePen kk rad sod := by
  funext j
  unfold k0_pay5 tilePen ClosePenalty.pen
  simp only [shapeCast_self]
  simp only [select_apply, broadcast_apply]
  show Scalar.select _ _ (Ideal.ofBits .f32 0x00000000#32) = _
  rw [Ideal.ofBits_zero_f32]
  rfl

/-- A column sum of masked values is the sum over the rows of the values the mask keeps. -/
theorem masked_colsum (nb : BitVec 32) (en : IVec S5000x128 32) (p : FVec Ideal S5000x128 .f32) (l : Fin 128) :
    multiReduction (F := Ideal) .add [0] S128
        (select (cmpi .eq en (broadcast S5000x128 nb)) p (broadcast S5000x128 (Scalar.ofBits (F := Ideal) .f32 0x00000000#32)))
        0x00000000#32 reduces_S5000x128_S128 (.inl rfl) rfl (ix1 l)
      = tileSum nb en p l := by
  refine (Ideal.multiReduction_add_single _ 0x00000000#32 reduces_S5000x128_S128 (.inl rfl) rfl (ix1 l)).trans ?_
  unfold tileSum
  show ∑ r : Fin 5000, _ = ∑ r : Fin 5000, _
  refine Finset.sum_congr rfl fun (r : Fin 5000) _ => ?_
  have hj : (reduces_S5000x128_S128.lift (ix1 l) r : S5000x128.Idx) = ix2 r l :=
    funext fun a => Fin.ext (by match a with | ⟨0, _⟩ => rfl | ⟨1, _⟩ => rfl)
  refine (congrArg (select (cmpi .eq en (broadcast S5000x128 nb)) p
    (broadcast S5000x128 (Scalar.ofBits (F := Ideal) .f32 0x00000000#32))) hj).trans ?_
  show Scalar.select (IntOp.cmpi .eq (en (ix2 r l)) nb) (p (ix2 r l)) (Ideal.ofBits .f32 0x00000000#32) = _
  rw [Ideal.ofBits_zero_f32]
  unfold Scalar.select
  exact if_congr StableHlo.Predicate.cmpi_eq_iff rfl rfl

/-- One accumulator row after a tile: what it held plus the tile's masked column sums. -/
theorem row_update (nb : BitVec 32) (en : IVec S5000x128 32) (p : FVec Ideal S5000x128 .f32)
    (row : FVec Ideal S1x128 .f32) (x : S1x128.Idx) :
    shapeCast S1x128
        (addf (shapeCast S128 row shapeCasts_S1x128_S128)
          (multiReduction (F := Ideal) .add [0] S128
            (select (cmpi .eq en (broadcast S5000x128 nb)) p (broadcast S5000x128 (Scalar.ofBits (F := Ideal) .f32 0x00000000#32)))
            0x00000000#32 reduces_S5000x128_S128 (.inl rfl) rfl))
        shapeCasts_S128_S1x128 x
      = row x + tileSum nb en p (x 1) := by
  obtain ⟨u, l, rfl⟩ : ∃ (u : Fin 1) (l : Fin 128), x = ix2 u l := ⟨x 0, x 1, eq_ix2 x⟩
  rw [shapeCast_a_1a_apply, addf_apply, shapeCast_1a_a_apply, masked_colsum]
  have hu : u = 0 := Subsingleton.elim _ _
  subst hu
  rfl

/-- A row with a lane-indexed amount added to it. -/
def rowAdd (row : FVec Ideal S1x128 .f32) (t : Fin 128 → EReal) : FVec Ideal S1x128 .f32 :=
  fun x => row x + t (x 1)

section Rows

variable (en : Vec Ideal S5000x128 .i32) (kk rad sod : Vec Ideal S5000x128 .f32) (row : Vec Ideal S1x128 .f32)

/-- `row_update` with the tile's molecule words and penalties as the body names them, rewritten to the plain arrays. -/
theorem row_update' (nb : BitVec 32) (x : S1x128.Idx) :
    row x + tileSum nb (k0_pay4 (F := Ideal) en) (k0_pay5 (F := Ideal) kk rad sod) (x 1)
      = rowAdd row (tileSum nb en (tilePen kk rad sod)) x := by
  rw [pay4_eq, pay5_eq]; rfl

/-- The body's new accumulator row 0: the old row plus the tile's column sums for molecule 0. -/
theorem row0_eq : k0_pay6 (F := Ideal) en kk rad sod row = rowAdd row (tileSum 0#32 en (tilePen kk rad sod)) :=
  funext fun x => (row_update 0#32 (k0_pay4 en) (k0_pay5 kk rad sod) row x).trans (row_update' en kk rad sod row 0#32 x)

/-- Row 1, whose column sums the body forms before it loads the old row. -/
theorem row1_eq : k0_pay8 (F := Ideal) (k0_pay7 en kk rad sod) row = rowAdd row (tileSum 1#32 en (tilePen kk rad sod)) :=
  funext fun x => (row_update 1#32 (k0_pay4 en) (k0_pay5 kk rad sod) row x).trans (row_update' en kk rad sod row 1#32 x)

/-- Row 2. -/
theorem row2_eq : k0_pay9 (F := Ideal) (k0_pay4 en) (k0_pay5 kk rad sod) row = rowAdd row (tileSum 2#32 en (tilePen kk rad sod)) :=
  funext fun x => (row_update 2#32 (k0_pay4 en) (k0_pay5 kk rad sod) row x).trans (row_update' en kk rad sod row 2#32 x)

/-- Row 3. -/
theorem row3_eq : k0_pay10 (F := Ideal) (k0_pay4 en) (k0_pay5 kk rad sod) row = rowAdd row (tileSum 3#32 en (tilePen kk rad sod)) :=
  funext fun x => (row_update 3#32 (k0_pay4 en) (k0_pay5 kk rad sod) row x).trans (row_update' en kk rad sod row 3#32 x)

/-- Row 4, whose column sums and old row the body names separately before adding them. -/
theorem row4_eq : k0_pay13 (F := Ideal) (k0_pay11 (k0_pay4 en) (k0_pay5 kk rad sod)) (k0_pay12 row)
    = rowAdd row (tileSum 4#32 en (tilePen kk rad sod)) :=
  funext fun x => (row_update 4#32 (k0_pay4 en) (k0_pay5 kk rad sod) row x).trans (row_update' en kk rad sod row 4#32 x)

/-- Row 5. -/
theorem row5_eq : k0_pay14 (F := Ideal) (k0_pay4 en) (k0_pay5 kk rad sod) row = rowAdd row (tileSum 5#32 en (tilePen kk rad sod)) :=
  funext fun x => (row_update 5#32 (k0_pay4 en) (k0_pay5 kk rad sod) row x).trans (row_update' en kk rad sod row 5#32 x)

/-- Row 6. -/
theorem row6_eq : k0_pay15 (F := Ideal) (k0_pay4 en) (k0_pay5 kk rad sod) row = rowAdd row (tileSum 6#32 en (tilePen kk rad sod)) :=
  funext fun x => (row_update 6#32 (k0_pay4 en) (k0_pay5 kk rad sod) row x).trans (row_update' en kk rad sod row 6#32 x)

/-- Row 7, whose sum the body forms first and then lays out as a row. -/
theorem row7_eq : k0_pay1 (F := Ideal) (k0_pay16 (k0_pay4 en) (k0_pay5 kk rad sod) row)
    = rowAdd row (tileSum 7#32 en (tilePen kk rad sod)) :=
  funext fun x => (row_update 7#32 (k0_pay4 en) (k0_pay5 kk rad sod) row x).trans (row_update' en kk rad sod row 7#32 x)

end Rows

/-- The accumulator's reset value is zero everywhere. -/
theorem pay3_eq : k0_pay3 (F := Ideal) = fun _ => (0 : EReal) := by
  funext j
  unfold k0_pay3
  simp only [shapeCast_self]
  show Ideal.ofBits .f32 0x00000000#32 = _
  exact Ideal.ofBits_zero_f32

end ClosePenalty.Tile

end
-- ==== Proof.KernelPieces.lean ====
import proofs.«426004_j59304908423819_3_alg».proof.Proof.Gen.KernelIdeal.Frame
import proofs.«426004_j59304908423819_3_alg».proof.Proof.KernelTile
import Idealize.ShloMosaic.Lib.Pipeline.CanonAppend
import Idealize.ShloMosaic.Lib.Pipeline.RowLoads

/-!
What one run of the kernel body leaves in the 8 × 128 accumulator and in the output block, over the extended reals.
The body stores the accumulator one row at a time; each new row is the old row plus the tile's column sums for that
row's molecule.  So after a tile the accumulator is the old accumulator plus, at (molecule, lane), the tile's sum over
its rows of the penalties of that molecule's edges in that lane.
-/

set_option maxRecDepth 16384

noncomputable section

namespace ClosePenalty.Pieces

open Idealize.ShloMosaic Idealize.ShloMosaic.ValueIdx Idealize.ShloMosaic.TcCoe Idealize.ShloMosaic.Tactic
open Idealize.SL Idealize.SL.Sem
open Cert.KernelIdeal Cert.KernelIdeal.Gen ClosePenalty.Tile

/-- The accumulator after a tile: what it held plus the tile's sums per molecule and lane. -/
def accStep (en : Vec Ideal S5000x128 .i32) (kk rad sod : Vec Ideal S5000x128 .f32) (prev : Vec Ideal S8x128 .f32) :
    Vec Ideal S8x128 .f32 :=
  fun y => prev y + tileSum (BitVec.ofNat 32 (y 0).val) en (tilePen kk rad sod) (y 1)

theorem hz2 : (![0, 0] : Fin 2 → ℕ) = fun _ => 0 := by
  funext a; match a with | ⟨0, _⟩ => rfl | ⟨1, _⟩ => rfl

/-- The row-`k` store of a tile: its payload, the old row plus the sums for molecule `k`, is the new accumulator on that row. -/
theorem row_piece (k : ℕ) (inb : ∀ a, (![k, 0] : Fin 2 → ℕ) a + S1x128.size a ≤ S8x128.size a)
    (prev : Vec Ideal S8x128 .f32) (T : BitVec 32 → Fin 128 → EReal) (x : S1x128.Idx) :
    rowAdd (View.ld prev (Rect.unit (s := S8x128) ![k, 0] S1x128.size inb)) (T (BitVec.ofNat 32 k)) x
      = prev ((Rect.unit (s := S8x128) ![k, 0] S1x128.size inb).emb x)
        + T (BitVec.ofNat 32 (((Rect.unit (s := S8x128) ![k, 0] S1x128.size inb).emb x) 0).val)
            (((Rect.unit (s := S8x128) ![k, 0] S1x128.size inb).emb x) 1) := by
  have hx0 : (x 0).val = 0 := by have := (x 0).isLt; change (x 0).val < 1 at this; omega
  have h0 : (((Rect.unit (s := S8x128) ![k, 0] S1x128.size inb).emb x) 0).val = k := by
    show k + 1 * (x 0).val = k
    omega
  have h1 : ((Rect.unit (s := S8x128) ![k, 0] S1x128.size inb).emb x) 1 = x 1 :=
    Fin.ext (by show 0 + 1 * (x 1).val = (x 1).val; omega)
  rw [h0, h1]; rfl

theorem hz3 : (![0, 0, 0] : Fin 3 → ℕ) = fun _ => 0 := by
  funext a; match a with | ⟨0, _⟩ => rfl | ⟨1, _⟩ => rfl | ⟨2, _⟩ => rfl

/-- The output block's entry for molecule `n` is the sum of accumulator row `n` over its lanes. -/
theorem pay2_apply (acc : Vec Ideal S8x128 .f32) (j : S1x1x8.Idx) :
    k0_pay2 (F := Ideal) acc j = ∑ l : Fin 128, acc (ix2 (j 2) l) := by
  unfold k0_pay2
  refine (shapeCast_apply _ shapeCasts_S8_S1x1x8 j (ix1 (j 2)) ?_).trans ?_
  · rw [Shape.rowMajor_val_one, Shape.rowMajor_val_three]
    have h0 : (j 0).val = 0 := by have := (j 0).isLt; change (j 0).val < 1 at this; omega
    have h1 : (j 1).val = 0 := by have := (j 1).isLt; change (j 1).val < 1 at this; omega
    show (j 2).val = ((j 0).val * 1 + (j 1).val) * 8 + (j 2).val
    rw [h0, h1]; omega
  · refine (Ideal.multiReduction_add_single _ 0x00000000#32 reduces_S8x128_S8 (.inl rfl) rfl (ix1 (j 2))).trans ?_
    show ∑ l : Fin 128, _ = ∑ l : Fin 128, _
    refine Finset.sum_congr rfl fun (l : Fin 128) _ => ?_
    exact congrArg acc (funext fun a => Fin.ext (by match a with | ⟨0, _⟩ => rfl | ⟨1, _⟩ => rfl))

/-- An index whose row is `k` lies in the one-row rectangle at row `k`. -/
theorem mem_row (k : ℕ) (inb : ∀ a, (![k, 0] : Fin 2 → ℕ) a + S1x128.size a ≤ S8x128.size a) (y : S8x128.Idx)
    (hy : (y 0).val = k) : y ∈ (Rect.unit (s := S8x128) ![k, 0] S1x128.size inb).set := by
  refine Rect.mem_set_unit.mpr (Fin.forall_fin_two.mpr ⟨⟨?_, ?_⟩, ⟨?_, ?_⟩⟩)
  · show k ≤ (y 0).val; omega
  · show (y 0).val < k + 1; omega
  · show 0 ≤ (y 1).val; omega
  · have := (y 1).isLt; change (y 1).val < 128 at this
    show (y 1).val < 0 + 128; omega

section Cases

variable (c : Dev nD) (i : grid0.Coords) (arg2 : Memref sig .tc .vmem S5000x128 .i32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S5000x128 .f32) (harg5 : arg5.IsWhole) (arg6 : Memref sig .tc .vmem S1x1x8 .f32) (harg6 : arg6.IsWhole) (arg7 : Memref sig .tc .vmem S8x128 .f32) (harg7 : arg7.IsWhole)
  (x0 : Vec Ideal S5000x128 .i32) (x1 x2 x3 : Vec Ideal S5000x128 .f32)

/-- A middle tile of a core: the accumulator it found, stepped by the tile. -/
theorem sout_B (hc0 : ¬cond0_0 i) (hc1 : ¬cond0_1 i) (xs0 : Vec Ideal S8x128 .f32) :
    sout0_B_0 (F := Ideal) c i arg2 harg2 arg3 harg3 arg4 harg4 arg5 harg5 arg6 harg6 arg7 harg7 hc0 hc1 x0 x1 x2 x3 xs0 = accStep x0 x1 x2 x3 xs0 := by
  funext y
  unfold sout0_B_0
  refine View.read_writes_apply_of_pieces VS0_0 _ (accStep x0 x1 x2 x3 xs0) _ ?_ y (scover0_B_0 (F := Ideal) c i arg2 harg2 arg3 harg3 arg4 harg4 arg5 harg5 arg6 harg6 arg7 harg7 hc0 hc1 x0 x1 x2 x3 xs0 y)
  unfold kernelRun0_B
  dsimp only
  sl_unfold_words
  simp only [View.readAt_eq_ld, harg2.read_unread, harg3.read_unread, harg4.read_unread, harg5.read_unread,
    harg7.read_unread, View.ld_unit_zero (S := S5000x128) hz2]
  simp only [row0_eq, row1_eq, row2_eq, row3_eq, row4_eq, row5_eq, row6_eq, row7_eq]
  intro p hp x
  simp only [List.mem_cons, List.not_mem_nil, or_false] at hp
  rcases hp with rfl | rfl | rfl | rfl | rfl | rfl | rfl | rfl
  · exact row_piece 7 _ xs0 (fun nb => tileSum nb x0 (tilePen x1 x2 x3)) x
  · exact row_piece 6 _ xs0 (fun nb => tileSum nb x0 (tilePen x1 x2 x3)) x
  · exact row_piece 5 _ xs0 (fun nb => tileSum nb x0 (tilePen x1 x2 x3)) x
  · exact row_piece 4 _ xs0 (fun nb => tileSum nb x0 (tilePen x1 x2 x3)) x
  · exact row_piece 3 _ xs0 (fun nb => tileSum nb x0 (tilePen x1 x2 x3)) x
  · exact row_piece 2 _ xs0 (fun nb => tileSum nb x0 (tilePen x1 x2 x3)) x
  · exact row_piece 1 _ xs0 (fun nb => tileSum nb x0 (tilePen x1 x2 x3)) x
  · exact row_piece 0 _ xs0 (fun nb => tileSum nb x0 (tilePen x1 x2 x3)) x

/-- The last tile of a core leaves the accumulator as a middle tile does. -/
theorem canon_C (hc0 : ¬cond0_0 i) (hc1 : cond0_1 i) (xs0 : Vec Ideal S8x128 .f32) :
    View.canon (kernelRun0_C (F := Ideal) c i arg2 harg2 arg3 harg3 arg4 harg4 arg5 harg5 arg6 harg6 arg7 harg7 hc0 hc1 x0 x1 x2 x3 xs0).2.1 = accStep x0 x1 x2 x3 xs0 := by
  funext y
  refine View.canon_apply_of_pieces (accStep x0 x1 x2 x3 xs0) _ ?_ y (scover0_C_0 (F := Ideal) c i arg2 harg2 arg3 harg3 arg4 harg4 arg5 harg5 arg6 harg6 arg7 harg7 hc0 hc1 x0 x1 x2 x3 xs0 y)
  unfold kernelRun0_C
  dsimp only
  sl_unfold_words
  simp only [View.readAt_eq_ld, harg2.read_unread, harg3.read_unread, harg4.read_unread, harg5.read_unread,
    harg7.read_unread, View.ld_unit_zero (S := S5000x128) hz2]
  simp only [row0_eq, row1_eq, row2_eq, row3_eq, row4_eq, row5_eq, row6_eq, row7_eq]
  intro p hp x
  simp only [List.mem_cons, List.not_mem_nil, or_false] at hp
  rcases hp with rfl | rfl | rfl | rfl | rfl | rfl | rfl | rfl
  · exact row_piece 7 _ xs0 (fun nb => tileSum nb x0 (tilePen x1 x2 x3)) x
  · exact row_piece 6 _ xs0 (fun nb => tileSum nb x0 (tilePen x1 x2 x3)) x
  · exact row_piece 5 _ xs0 (fun nb => tileSum nb x0 (tilePen x1 x2 x3)) x
  · exact row_piece 4 _ xs0 (fun nb => tileSum nb x0 (tilePen x1 x2 x3)) x
  · exact row_piece 3 _ xs0 (fun nb => tileSum nb x0 (tilePen x1 x2 x3)) x
  · exact row_piece 2 _ xs0 (fun nb => tileSum nb x0 (tilePen x1 x2 x3)) x
  · exact row_piece 1 _ xs0 (fun nb => tileSum nb x0 (tilePen x1 x2 x3)) x
  · exact row_piece 0 _ xs0 (fun nb => tileSum nb x0 (tilePen x1 x2 x3)) x

theorem sout_C (hc0 : ¬cond0_0 i) (hc1 : cond0_1 i) (xs0 : Vec Ideal S8x128 .f32) :
    sout0_C_0 (F := Ideal) c i arg2 harg2 arg3 harg3 arg4 harg4 arg5 harg5 arg6 harg6 arg7 harg7 hc0 hc1 x0 x1 x2 x3 xs0 = accStep x0 x1 x2 x3 xs0 := by
  unfold sout0_C_0
  rw [View.read_writes_eq_canon _ _ _ (scover0_C_0 (F := Ideal) c i arg2 harg2 arg3 harg3 arg4 harg4 arg5 harg5 arg6 harg6 arg7 harg7 hc0 hc1 x0 x1 x2 x3 xs0)]
  exact canon_C c i arg2 harg2 arg3 harg3 arg4 harg4 arg5 harg5 arg6 harg6 arg7 harg7 x0 x1 x2 x3 hc0 hc1 xs0

/-- The one store into the output block at a core's last tile: the lane sums of the accumulator the body reads back whole. -/
theorem L4_C (hc0 : ¬cond0_0 i) (hc1 : cond0_1 i) (xs0 : Vec Ideal S8x128 .f32) :
    (kernelRun0_C (F := Ideal) c i arg2 harg2 arg3 harg3 arg4 harg4 arg5 harg5 arg6 harg6 arg7 harg7 hc0 hc1 x0 x1 x2 x3 xs0).1
      = [⟨Rect.unit (s := S1x1x8) ![0, 0, 0] ![1, 1, 8] inb_S1x1x8_S1x1x8_0_0_0,
          k0_pay2 (arg7.view.readCov (kernelRun0_C (F := Ideal) c i arg2 harg2 arg3 harg3 arg4 harg4 arg5 harg5 arg6 harg6 arg7 harg7 hc0 hc1 x0 x1 x2 x3 xs0).2.1
            (Rect.unit (s := S8x128) ![0, 0] ![8, 128] inb_S8x128_S8x128_0_0).toLoadRect)⟩] := rfl

/-- What the body reads back whole at a core's last tile is the stepped accumulator. -/
theorem readCov_C (hc0 : ¬cond0_0 i) (hc1 : cond0_1 i) (xs0 : Vec Ideal S8x128 .f32) :
    arg7.view.readCov (kernelRun0_C (F := Ideal) c i arg2 harg2 arg3 harg3 arg4 harg4 arg5 harg5 arg6 harg6 arg7 harg7 hc0 hc1 x0 x1 x2 x3 xs0).2.1
        (Rect.unit (s := S8x128) ![0, 0] ![8, 128] inb_S8x128_S8x128_0_0).toLoadRect
      = accStep x0 x1 x2 x3 xs0 := by
  rw [View.readCov_eq_canon_ld _ _ _ (scover0_C_0 (F := Ideal) c i arg2 harg2 arg3 harg3 arg4 harg4 arg5 harg5 arg6 harg6 arg7 harg7 hc0 hc1 x0 x1 x2 x3 xs0),
    View.ld_unit_zero (S := S8x128) hz2, canon_C c i arg2 harg2 arg3 harg3 arg4 harg4 arg5 harg5 arg6 harg6 arg7 harg7 x0 x1 x2 x3 hc0 hc1 xs0]

/-- The output block a core's last tile stores: per molecule, the stepped accumulator's row summed over its lanes. -/
theorem out_C (hc0 : ¬cond0_0 i) (hc1 : cond0_1 i) (xs0 : Vec Ideal S8x128 .f32) (j : S1x1x8.Idx) :
    out0_C_4 (F := Ideal) c i arg2 harg2 arg3 harg3 arg4 harg4 arg5 harg5 arg6 harg6 arg7 harg7 hc0 hc1 x0 x1 x2 x3 xs0 j = ∑ l : Fin 128, accStep x0 x1 x2 x3 xs0 (ix2 (j 2) l) := by
  unfold out0_C_4
  rw [L4_C c i arg2 harg2 arg3 harg3 arg4 harg4 arg5 harg5 arg6 harg6 arg7 harg7 x0 x1 x2 x3 hc0 hc1 xs0, readCov_C c i arg2 harg2 arg3 harg3 arg4 harg4 arg5 harg5 arg6 harg6 arg7 harg7 x0 x1 x2 x3 hc0 hc1 xs0, View.read_writes_junk_eq_canon,
    View.canon_unit_zero (S := S1x1x8) hz3]
  exact pay2_apply _ j

/-- A row loaded from the accumulator right after it was reset whole reads zeros. -/
theorem readCov_reset_row (k : ℕ) (inb0 : ∀ a, (![0, 0] : Fin 2 → ℕ) a + S8x128.size a ≤ S8x128.size a)
    (inb : ∀ a, (![k, 0] : Fin 2 → ℕ) a + S1x128.size a ≤ S8x128.size a) :
    arg7.view.readCov
        [(⟨Rect.unit (s := S8x128) ![0, 0] S8x128.size inb0, k0_pay3 (F := Ideal)⟩ : View.Piece (Elt Ideal) S8x128 .f32)]
        (Rect.unit (s := S8x128) ![k, 0] S1x128.size inb).toLoadRect
      = fun _ => (0 : EReal) := by
  rw [View.readCov_eq_canon', View.canon_unit_zero (S := S8x128) hz2, pay3_eq]

/-- A load of row `k` does not see a store into an earlier row `j`. -/
theorem peel_row (j k : ℕ) (h : j + 1 ≤ k) (w : S1x128.Idx → EReal) (L : List (View.Piece (Elt Ideal) S8x128 .f32))
    (inb : ∀ a, (![j, 0] : Fin 2 → ℕ) a + S1x128.size a ≤ S8x128.size a)
    (inb' : ∀ a, (![k, 0] : Fin 2 → ℕ) a + S1x128.size a ≤ S8x128.size a) :
    arg7.view.readCov ((⟨Rect.unit (s := S8x128) ![j, 0] S1x128.size inb, w⟩ : View.Piece (Elt Ideal) S8x128 .f32) :: L)
        (Rect.unit (s := S8x128) ![k, 0] S1x128.size inb').toLoadRect
      = arg7.view.readCov L (Rect.unit (s := S8x128) ![k, 0] S1x128.size inb').toLoadRect := by
  refine View.readCov_cons_of_disjoint arg7.view _ L _ ?_
  refine Rect.unit_disjoint (inb := inb) (inb' := inb') (0 : Fin 2) (Or.inl ?_)
  show j + 1 ≤ k
  exact h

/-- The first tile of a core: the accumulator is reset, then stepped by the tile. -/
theorem sout_A (hc0 : cond0_0 i) (hc1 : ¬cond0_1 i) :
    sout0_A_0 (F := Ideal) c i arg2 harg2 arg3 harg3 arg4 harg4 arg5 harg5 arg6 harg6 arg7 harg7 hc0 hc1 x0 x1 x2 x3 = accStep x0 x1 x2 x3 (fun _ => 0) := by
  funext y
  unfold sout0_A_0
  rw [View.read_writes_junk_apply_eq_canon]
  unfold kernelRun0_A
  dsimp only
  sl_unfold_words
  simp only [View.readAt_eq_ld, harg2.read_unread, harg3.read_unread, harg4.read_unread, harg5.read_unread,
    View.ld_unit_zero (S := S5000x128) hz2]
  simp only [row0_eq, row1_eq, row2_eq, row3_eq, row4_eq, row5_eq, row6_eq, row7_eq]
  rw [peel_row arg7 0 1 (by omega)]
  rw [peel_row arg7 1 2 (by omega), peel_row arg7 0 2 (by omega)]
  rw [peel_row arg7 2 3 (by omega), peel_row arg7 1 3 (by omega), peel_row arg7 0 3 (by omega)]
  rw [peel_row arg7 3 4 (by omega), peel_row arg7 2 4 (by omega), peel_row arg7 1 4 (by omega), peel_row arg7 0 4 (by omega)]
  rw [peel_row arg7 4 5 (by omega), peel_row arg7 3 5 (by omega), peel_row arg7 2 5 (by omega), peel_row arg7 1 5 (by omega),
    peel_row arg7 0 5 (by omega)]
  rw [peel_row arg7 5 6 (by omega), peel_row arg7 4 6 (by omega), peel_row arg7 3 6 (by omega), peel_row arg7 2 6 (by omega),
    peel_row arg7 1 6 (by omega), peel_row arg7 0 6 (by omega)]
  rw [peel_row arg7 6 7 (by omega), peel_row arg7 5 7 (by omega), peel_row arg7 4 7 (by omega), peel_row arg7 3 7 (by omega),
    peel_row arg7 2 7 (by omega), peel_row arg7 1 7 (by omega), peel_row arg7 0 7 (by omega)]
  rw [readCov_reset_row arg7 7, readCov_reset_row arg7 6, readCov_reset_row arg7 5, readCov_reset_row arg7 4,
    readCov_reset_row arg7 3, readCov_reset_row arg7 2, readCov_reset_row arg7 1, readCov_reset_row arg7 0]
  refine View.canon_append_of_pieces (accStep x0 x1 x2 x3 (fun _ => 0)) [_] [_, _, _, _, _, _, _, _] ?_ y ?_
  · intro p hp x
    simp only [List.mem_cons, List.not_mem_nil, or_false] at hp
    rcases hp with rfl | rfl | rfl | rfl | rfl | rfl | rfl | rfl
    · exact row_piece 7 inb_S8x128_S1x128_7_0 (fun _ => 0) (fun nb => tileSum nb x0 (tilePen x1 x2 x3)) x
    · exact row_piece 6 inb_S8x128_S1x128_6_0 (fun _ => 0) (fun nb => tileSum nb x0 (tilePen x1 x2 x3)) x
    · exact row_piece 5 inb_S8x128_S1x128_5_0 (fun _ => 0) (fun nb => tileSum nb x0 (tilePen x1 x2 x3)) x
    · exact row_piece 4 inb_S8x128_S1x128_4_0 (fun _ => 0) (fun nb => tileSum nb x0 (tilePen x1 x2 x3)) x
    · exact row_piece 3 inb_S8x128_S1x128_3_0 (fun _ => 0) (fun nb => tileSum nb x0 (tilePen x1 x2 x3)) x
    · exact row_piece 2 inb_S8x128_S1x128_2_0 (fun _ => 0) (fun nb => tileSum nb x0 (tilePen x1 x2 x3)) x
    · exact row_piece 1 inb_S8x128_S1x128_1_0 (fun _ => 0) (fun nb => tileSum nb x0 (tilePen x1 x2 x3)) x
    · exact row_piece 0 inb_S8x128_S1x128_0_0 (fun _ => 0) (fun nb => tileSum nb x0 (tilePen x1 x2 x3)) x
  · have hy : (y 0).val < 8 := (y 0).isLt
    rcases (by omega : (y 0).val = 7 ∨ (y 0).val = 6 ∨ (y 0).val = 5 ∨ (y 0).val = 4 ∨ (y 0).val = 3 ∨ (y 0).val = 2
      ∨ (y 0).val = 1 ∨ (y 0).val = 0) with h | h | h | h | h | h | h | h
    · exact ⟨_, .head _, mem_row 7 inb_S8x128_S1x128_7_0 y h⟩
    · exact ⟨_, .tail _ (.head _), mem_row 6 inb_S8x128_S1x128_6_0 y h⟩
    · exact ⟨_, .tail _ (.tail _ (.head _)), mem_row 5 inb_S8x128_S1x128_5_0 y h⟩
    · exact ⟨_, .tail _ (.tail _ (.tail _ (.head _))), mem_row 4 inb_S8x128_S1x128_4_0 y h⟩
    · exact ⟨_, .tail _ (.tail _ (.tail _ (.tail _ (.head _)))), mem_row 3 inb_S8x128_S1x128_3_0 y h⟩
    · exact ⟨_, .tail _ (.tail _ (.tail _ (.tail _ (.tail _ (.head _))))), mem_row 2 inb_S8x128_S1x128_2_0 y h⟩
    · exact ⟨_, .tail _ (.tail _ (.tail _ (.tail _ (.tail _ (.tail _ (.head _)))))), mem_row 1 inb_S8x128_S1x128_1_0 y h⟩
    · exact ⟨_, .tail _ (.tail _ (.tail _ (.tail _ (.tail _ (.tail _ (.tail _ (.head _))))))), mem_row 0 inb_S8x128_S1x128_0_0 y h⟩

end Cases

end ClosePenalty.Pieces

end
-- ==== Proof.SumTiles.lean ====
import Mathlib.Algebra.BigOperators.Fin
import Mathlib.Algebra.BigOperators.Group.Finset.Basic
import Mathlib.Logic.Equiv.Fin.Basic
import Mathlib.Data.Fintype.BigOperators
import Mathlib.Data.Fintype.EquivFin
import Mathlib.Data.Fintype.Prod

/-!
The edges as the kernel walks them.  The 5 120 000 edges are laid out as 40 000 rows of 128 lanes; the rows are cut into
8 tiles of 5000 rows; core `c` takes tiles `4c … 4c + 3`.  Summing, per core and lane, the four tiles' row sums one after
the other from zero, and then over lanes and cores, is summing over all edges.
-/

namespace ClosePenalty

/-- Tile `s` of core `c`. -/
def tileOf (c : Fin 2) (s : Fin 4) : Fin 8 := ⟨4 * c.val + s.val, by omega⟩

/-- The edge in row `r`, lane `l` of tile `t`. -/
def edgeOf (t : Fin 8) (r : Fin 5000) (l : Fin 128) : Fin 5120000 :=
  ⟨(t.val * 5000 + r.val) * 128 + l.val, by omega⟩

theorem sum_tiles {M : Type*} [AddCommMonoid M] (f : Fin 5120000 → M) :
    ∑ c : Fin 2, ∑ l : Fin 128,
        ((((0 + ∑ r : Fin 5000, f (edgeOf (tileOf c 0) r l)) + ∑ r : Fin 5000, f (edgeOf (tileOf c 1) r l))
          + ∑ r : Fin 5000, f (edgeOf (tileOf c 2) r l)) + ∑ r : Fin 5000, f (edgeOf (tileOf c 3) r l))
      = ∑ e : Fin 5120000, f e := by
  -- (core, lane, tile of the core, row) names each edge exactly once: the map is one-to-one because the edge's number
  -- is the mixed-radix numeral with digits c < 2, s < 4, r < 5000, l < 128, and both sides have 5 120 000 elements
  have key : ∑ x : Fin 2 × Fin 128 × Fin 4 × Fin 5000, f (edgeOf (tileOf x.1 x.2.2.1) x.2.2.2 x.2.1) = ∑ e, f e := by
    refine Fintype.sum_bijective
      (fun x : Fin 2 × Fin 128 × Fin 4 × Fin 5000 => edgeOf (tileOf x.1 x.2.2.1) x.2.2.2 x.2.1) ?_ _ _ (fun _ => rfl)
    rw [Fintype.bijective_iff_injective_and_card]
    refine ⟨?_, by simp [Fintype.card_prod, Fintype.card_fin]⟩
    rintro ⟨c, l, s, r⟩ ⟨c', l', s', r'⟩ h
    have h' : ((4 * c.val + s.val) * 5000 + r.val) * 128 + l.val
        = ((4 * c'.val + s'.val) * 5000 + r'.val) * 128 + l'.val := congrArg Fin.val h
    have := c.isLt; have := c'.isLt; have := l.isLt; have := l'.isLt
    have := s.isLt; have := s'.isLt; have := r.isLt; have := r'.isLt
    obtain ⟨hc, hl, hs, hr⟩ : c.val = c'.val ∧ l.val = l'.val ∧ s.val = s'.val ∧ r.val = r'.val := by omega
    rw [Fin.ext hc, Fin.ext hl, Fin.ext hs, Fin.ext hr]
  -- the sum over the quadruples is the nested sum; the sum over a core's four tiles, written out, is the chain from zero
  rw [← key, Fintype.sum_prod_type]
  refine Finset.sum_congr rfl fun c _ => ?_
  rw [Fintype.sum_prod_type]
  refine Finset.sum_congr rfl fun l _ => ?_
  rw [Fintype.sum_prod_type, Fin.sum_univ_four, zero_add]

end ClosePenalty
-- ==== Proof.KernelRun.lean ====
import proofs.«426004_j59304908423819_3_alg».proof.Proof.Gen.KernelIdeal.Frame
import proofs.«426004_j59304908423819_3_alg».proof.Proof.KernelPieces
import proofs.«426004_j59304908423819_3_alg».proof.Proof.SumTiles
import Idealize.ShloMosaic.Lib.StableHlo.Run
import Idealize.ShloMosaic.Lib.ValueIdxRank1

/-!
The kernel's run read as values.  Point `t` of the grid (core `t / 4`, step `t % 4`) works on tile `t`: rows
`5000 t … 5000 t + 4999` of the edge arrays laid out as 40 000 rows of 128 lanes.  A core's accumulator is reset at its
first tile and stepped by each of its four tiles; at the fourth the rows are summed over the lanes into the core's row
of the [2, 1, 8] output, and the host adds the two cores' rows.
-/

set_option maxRecDepth 16384

noncomputable section

namespace ClosePenalty.Run

open Idealize.ShloMosaic Idealize.ShloMosaic.ValueIdx Idealize.ShloMosaic.TcCoe
open Idealize.SL Idealize.SL.Sem
open Cert.KernelIdeal Cert.KernelIdeal.Gen ClosePenalty.Tile ClosePenalty.Pieces

variable (m : (ℓ : Loc nD τ sig) → Buf (Elt Ideal) ℓ)

/-! ## The accumulator point by point -/

/-- The accumulator stepped by the tile of point `t`. -/
def stepAt (c : Dev nD) (t : Fin cfg0.N) (prev : Vec Ideal S8x128 .f32) : Vec Ideal S8x128 .f32 :=
  accStep (iblk m c 0 t) (iblk m c 1 t) (iblk m c 2 t) (iblk m c 3 t) prev

/-- After a core's first tile. -/
theorem acc_A (c : Dev nD) (t : Fin cfg0.N) (h0 : t.val % 4 = 0) :
    (outsAt0 (F := Ideal) m c t.val t.isLt).2 = stepAt m c t (fun _ => 0) := by
  have h1 : ¬t.val % 4 = 3 := by omega
  rw [outsAt0_A m c t h0 h1]
  dsimp only
  exact sout_A c (grid0.coords t) (ms0_0 t) (hs0_0 t) (ms0_1 t) (hs0_1 t) (ms0_2 t) (hs0_2 t) (ms0_3 t) (hs0_3 t)
    (ms0_4 t) (hs0_4 t) scM0_0 (Memref.isWhole_whole _) (iblk m c 0 t) (iblk m c 1 t) (iblk m c 2 t) (iblk m c 3 t)
    ((hcond0_0 t).mpr h0) (fun h => h1 ((hcond0_1 t).mp h))

/-- After a core's second or third tile. -/
theorem acc_B (c : Dev nD) (t : Fin cfg0.N) (h0 : ¬t.val % 4 = 0) (h1 : ¬t.val % 4 = 3) :
    (outsAt0 (F := Ideal) m c t.val t.isLt).2
      = stepAt m c t (outsAt0 (F := Ideal) m c (t.val - 1) (Nat.lt_of_le_of_lt (Nat.sub_le _ _) t.isLt)).2 := by
  rw [outsAt0_B m c t h0 h1]
  dsimp only
  exact sout_B c (grid0.coords t) (ms0_0 t) (hs0_0 t) (ms0_1 t) (hs0_1 t) (ms0_2 t) (hs0_2 t) (ms0_3 t) (hs0_3 t)
    (ms0_4 t) (hs0_4 t) scM0_0 (Memref.isWhole_whole _) (iblk m c 0 t) (iblk m c 1 t) (iblk m c 2 t) (iblk m c 3 t)
    (fun h => h0 ((hcond0_0 t).mp h)) (fun h => h1 ((hcond0_1 t).mp h)) _

/-- The output block a core's fourth tile stores. -/
theorem out_last (c : Dev nD) (t : Fin cfg0.N) (h0 : ¬t.val % 4 = 0) (h1 : t.val % 4 = 3) (j : S1x1x8.Idx) :
    (outsAt0 (F := Ideal) m c t.val t.isLt).1 j
      = ∑ l : Fin 128, stepAt m c t (outsAt0 (F := Ideal) m c (t.val - 1) (Nat.lt_of_le_of_lt (Nat.sub_le _ _) t.isLt)).2
          (ix2 (j 2) l) := by
  rw [outsAt0_C m c t h0 h1]
  dsimp only
  exact out_C c (grid0.coords t) (ms0_0 t) (hs0_0 t) (ms0_1 t) (hs0_1 t) (ms0_2 t) (hs0_2 t) (ms0_3 t) (hs0_3 t)
    (ms0_4 t) (hs0_4 t) scM0_0 (Memref.isWhole_whole _) (iblk m c 0 t) (iblk m c 1 t) (iblk m c 2 t) (iblk m c 3 t)
    (fun h => h0 ((hcond0_0 t).mp h)) ((hcond0_1 t).mpr h1) _ j

/-- The point `d` steps before `t`. -/
def back (t : Fin cfg0.N) (d : ℕ) : Fin cfg0.N := ⟨t.val - d, Nat.lt_of_le_of_lt (Nat.sub_le _ _) t.isLt⟩

/-- A core's accumulator after its four tiles, from its fourth point `t`. -/
def coreAcc (c : Dev nD) (t : Fin cfg0.N) : Vec Ideal S8x128 .f32 :=
  stepAt m c t (stepAt m c (back t 1) (stepAt m c (back (back t 1) 1) (stepAt m c (back (back (back t 1) 1) 1) (fun _ => 0))))

/-- At a core's fourth point the output block holds the lane sums of the core's accumulator. -/
theorem out_core (c : Dev nD) (t : Fin cfg0.N) (h1 : t.val % 4 = 3) (j : S1x1x8.Idx) :
    (outsAt0 (F := Ideal) m c t.val t.isLt).1 j = ∑ l : Fin 128, coreAcc m c t (ix2 (j 2) l) := by
  have h0 : ¬t.val % 4 = 0 := by omega
  rw [out_last m c t h0 h1 j]
  have e1 := acc_B m c (back t 1) (by show ¬(t.val - 1) % 4 = 0; omega) (by show ¬(t.val - 1) % 4 = 3; omega)
  have e2 := acc_B m c (back (back t 1) 1) (by show ¬(t.val - 1 - 1) % 4 = 0; omega) (by show ¬(t.val - 1 - 1) % 4 = 3; omega)
  have e3 := acc_A m c (back (back (back t 1) 1) 1) (by show (t.val - 1 - 1 - 1) % 4 = 0; omega)
  unfold coreAcc
  refine Finset.sum_congr rfl fun l _ => ?_
  refine congrFun (congrArg (stepAt m c t) ?_) _
  exact e1.trans (congrArg (stepAt m c (back t 1)) (e2.trans (congrArg (stepAt m c (back (back t 1) 1)) e3)))

/-! ## The tiles as rows of the edge arrays -/

/-- The molecule words, force constants, radii and squared distances of all edges, as the region finds them. -/
abbrev enA (c : Dev nD) : S5120000.Idx → BitVec 32 := V m c main_arg1
abbrev kkA (c : Dev nD) : S5120000.Idx → EReal := V m c main_v42
abbrev radA (c : Dev nD) : S5120000.Idx → EReal := V m c main_v58
abbrev sodA (c : Dev nD) : S5120000.Idx → EReal := V m c main_arg4

open Idealize.ShloMosaic.StableHlo in
set_option maxHeartbeats 4000000 in
/-- The host lays the molecule words out as 40 000 rows of 128 lanes. -/
theorem V_en (c : Dev nD) : (V m c main_v60 : S40000x128.Idx → BitVec 32)
    = shapeCast S40000x128 (enA m c) shapeCasts_S5120000_S40000x128 := by
  show StableHlo.after hostOps0 (fun b => m (c, b)) (Proc.devRef .tc main_v60)
    = shapeCast S40000x128 (StableHlo.after hostOps0 (fun b => m (c, b)) (Proc.devRef .tc main_arg1)) shapeCasts_S5120000_S40000x128
  after_results_simp
  rfl

open Idealize.ShloMosaic.StableHlo in
set_option maxHeartbeats 4000000 in
/-- Likewise the force constants, -/
theorem V_kk (c : Dev nD) : (V m c main_v43 : S40000x128.Idx → EReal)
    = shapeCast S40000x128 (kkA m c) shapeCasts_S5120000_S40000x128 := by
  show StableHlo.after hostOps0 (fun b => m (c, b)) (Proc.devRef .tc main_v43)
    = shapeCast S40000x128 (StableHlo.after hostOps0 (fun b => m (c, b)) (Proc.devRef .tc main_v42)) shapeCasts_S5120000_S40000x128
  after_results_simp
  rfl

open Idealize.ShloMosaic.StableHlo in
set_option maxHeartbeats 4000000 in
/-- the contact radii, -/
theorem V_rad (c : Dev nD) : (V m c main_v59 : S40000x128.Idx → EReal)
    = shapeCast S40000x128 (radA m c) shapeCasts_S5120000_S40000x128 := by
  show StableHlo.after hostOps0 (fun b => m (c, b)) (Proc.devRef .tc main_v59)
    = shapeCast S40000x128 (StableHlo.after hostOps0 (fun b => m (c, b)) (Proc.devRef .tc main_v58)) shapeCasts_S5120000_S40000x128
  after_results_simp
  rfl

open Idealize.ShloMosaic.StableHlo in
set_option maxHeartbeats 4000000 in
/-- and the squared distances. -/
theorem V_sod (c : Dev nD) : (V m c main_v61 : S40000x128.Idx → EReal)
    = shapeCast S40000x128 (sodA m c) shapeCasts_S5120000_S40000x128 := by
  show StableHlo.after hostOps0 (fun b => m (c, b)) (Proc.devRef .tc main_v61)
    = shapeCast S40000x128 (StableHlo.after hostOps0 (fun b => m (c, b)) (Proc.devRef .tc main_arg4)) shapeCasts_S5120000_S40000x128
  after_results_simp
  rfl

/-- Row `R`, lane `l` of the 40 000 × 128 layout is edge `128 R + l`. -/
theorem laid_apply {α : Type} (X : S5120000.Idx → α) (R : Fin 40000) (l : Fin 128) :
    shapeCast S40000x128 X shapeCasts_S5120000_S40000x128 (ix2 R l) = X (ix1 ⟨R.val * 128 + l.val, by omega⟩) :=
  shapeCast_apply X shapeCasts_S5120000_S40000x128 _ _ (by rw [Shape.rowMajor_val_one, Shape.rowMajor_val_two]; rfl)

/-- The printed index maps of the four input windows, decided over the grid: point `t` takes row block `t`. -/
theorem idx_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The output window's: point `t` writes the row of core `t / 4`. -/
theorem idx_out : ∀ t : Fin cfg0.N, win0_4.index t (0 : Fin 3) = t.val / 4 ∧ win0_4.index t (1 : Fin 3) = 0
    ∧ win0_4.index t (2 : Fin 3) = 0 :=
  (by decide +kernel : ∀ t : Fin grid0.N, _)

theorem lt8 (t : Fin cfg0.N) : t.val < 8 :=
  lt_of_lt_of_eq t.isLt (show cfg0.N = 8 from N_0)

/-- Point `t`'s tile, as a tile number. -/
def tile8 (t : Fin cfg0.N) : Fin 8 := ⟨t.val, lt8 t⟩

/-- The edge, in the flat numbering, of row `r`, lane `l` of point `t`'s tile. -/
def edgeIx (t : Fin cfg0.N) (r : Fin 5000) (l : Fin 128) : S5120000.Idx := ix1 (ClosePenalty.edgeOf (tile8 t) r l)

section Blocks

variable (c : Dev nD) (t : Fin cfg0.N) (r : Fin 5000) (l : Fin 128)

theorem blk_en : iblk m c 0 t (ix2 r l) = enA m c (edgeIx t r l) := by
  obtain ⟨e0, e1, -⟩ := idx_in t
  have ht := lt8 t
  show V m c main_v60 (((cfg0.win 0).blk t).view.emb (ix2 r l)) = _
  have he : ((cfg0.win 0).blk t).view.emb (ix2 r l) = (ix2 ⟨t.val * 5000 + r.val, by omega⟩ l : S40000x128.Idx) := by
    funext a; apply Fin.ext
    match a with
    | ⟨0, _⟩ => show win0_0.index t (0 : Fin 2) * 5000 + 1 * r.val = t.val * 5000 + r.val; omega
    | ⟨1, _⟩ => show win0_0.index t (1 : Fin 2) * 128 + 1 * l.val = l.val; omega
  rw [he, V_en, laid_apply]
  rfl

theorem blk_kk : iblk m c 1 t (ix2 r l) = kkA m c (edgeIx t r l) := by
  obtain ⟨-, -, e0, e1, -⟩ := idx_in t
  have ht := lt8 t
  show V m c main_v43 (((cfg0.win 1).blk t).view.emb (ix2 r l)) = _
  have he : ((cfg0.win 1).blk t).view.emb (ix2 r l) = (ix2 ⟨t.val * 5000 + r.val, by omega⟩ l : S40000x128.Idx) := by
    funext a; apply Fin.ext
    match a with
    | ⟨0, _⟩ => show win0_1.index t (0 : Fin 2) * 5000 + 1 * r.val = t.val * 5000 + r.val; omega
    | ⟨1, _⟩ => show win0_1.index t (1 : Fin 2) * 128 + 1 * l.val = l.val; omega
  rw [he, V_kk, laid_apply]
  rfl

theorem blk_rad : iblk m c 2 t (ix2 r l) = radA m c (edgeIx t r l) := by
  obtain ⟨-, -, -, -, e0, e1, -⟩ := idx_in t
  have ht := lt8 t
  show V m c main_v59 (((cfg0.win 2).blk t).view.emb (ix2 r l)) = _
  have he : ((cfg0.win 2).blk t).view.emb (ix2 r l) = (ix2 ⟨t.val * 5000 + r.val, by omega⟩ l : S40000x128.Idx) := by
    funext a; apply Fin.ext
    match a with
    | ⟨0, _⟩ => show win0_2.index t (0 : Fin 2) * 5000 + 1 * r.val = t.val * 5000 + r.val; omega
    | ⟨1, _⟩ => show win0_2.index t (1 : Fin 2) * 128 + 1 * l.val = l.val; omega
  rw [he, V_rad, laid_apply]
  rfl

theorem blk_sod : iblk m c 3 t (ix2 r l) = sodA m c (edgeIx t r l) := by
  obtain ⟨-, -, -, -, -, -, e0, e1⟩ := idx_in t
  have ht := lt8 t
  show V m c main_v61 (((cfg0.win 3).blk t).view.emb (ix2 r l)) = _
  have he : ((cfg0.win 3).blk t).view.emb (ix2 r l) = (ix2 ⟨t.val * 5000 + r.val, by omega⟩ l : S40000x128.Idx) := by
    funext a; apply Fin.ext
    match a with
    | ⟨0, _⟩ => show win0_3.index t (0 : Fin 2) * 5000 + 1 * r.val = t.val * 5000 + r.val; omega
    | ⟨1, _⟩ => show win0_3.index t (1 : Fin 2) * 128 + 1 * l.val = l.val; omega
  rw [he, V_sod, laid_apply]
  rfl

end Blocks

/-- What point `t`'s tile adds at (molecule `n`, lane `l`): the contributions to `n` of the tile's edges in that lane. -/
theorem tile_term (c : Dev nD) (t : Fin cfg0.N) (n : Fin 8) (l : Fin 128) :
    tileSum (BitVec.ofNat 32 n.val) (iblk m c 0 t) (tilePen (iblk m c 1 t) (iblk m c 2 t) (iblk m c 3 t)) l
      = ∑ r : Fin 5000, ClosePenalty.term (enA m c) (kkA m c) (radA m c) (sodA m c) n (edgeIx t r l) := by
  unfold tileSum tilePen ClosePenalty.term
  refine Finset.sum_congr rfl fun r _ => ?_
  rw [blk_en, blk_kk, blk_rad, blk_sod]

/-! ## The output array -/

/-- Core `q`'s fourth point. -/
def lastPt (q : ℕ) (hq : q < 2) : Fin cfg0.N := ⟨4 * q + 3, lt_of_lt_of_eq (by omega) (show cfg0.N = 8 from N_0).symm⟩

/-- What the [2, 1, 8] output ends holding: at (core, 0, molecule) the lane sums of that core's accumulator. -/
def outArr (c : Dev nD) : S2x1x8.Idx → EReal :=
  fun i => ∑ l : Fin 128, coreAcc m c (lastPt (i 0).val (i 0).isLt) (ix2 (⟨(i 2).val, (i 2).isLt⟩ : Fin 8) l)

/-- What a point that writes the output block back writes is its block of `outArr`. -/
theorem flushed_eq (c : Dev nD) (t : Fin cfg0.N) (hf : (cfg0.win 4).flush t = true) :
    (dats m 0 c).flushed 4 t = ((cfg0.win 4).blk t).view.read (Elt Ideal) (outArr m c) := by
  have h3 : t.val % 4 = 3 := (flush0_4 t).mp hf
  have ht := lt8 t
  obtain ⟨e0, e1, e2⟩ := idx_out t
  show (cfg0.win 4).cut (grid0.coords t) ((dats m 0 c).after 4 t) = _
  rw [after0_4]
  funext j
  show (outsAt0 (F := Ideal) m c t.val t.isLt).1 j = outArr m c (((cfg0.win 4).blk t).view.emb j)
  rw [out_core m c t h3 j]
  unfold outArr
  have hj0 : (j 0).val = 0 := by have := (j 0).isLt; change (j 0).val < 1 at this; omega
  have hq : ((((cfg0.win 4).blk t).view.emb j) 0).val = t.val / 4 := by
    show win0_4.index t (0 : Fin 3) * 1 + 1 * (j 0).val = t.val / 4; omega
  have hl : lastPt ((((cfg0.win 4).blk t).view.emb j) 0).val ((((cfg0.win 4).blk t).view.emb j) 0).isLt = t :=
    Fin.ext (by show 4 * ((((cfg0.win 4).blk t).view.emb j) 0).val + 3 = t.val; rw [hq]; omega)
  have hn : (⟨((((cfg0.win 4).blk t).view.emb j) 2).val, ((((cfg0.win 4).blk t).view.emb j) 2).isLt⟩ : Fin 8) = j 2 :=
    Fin.ext (by show win0_4.index t (2 : Fin 3) * 8 + 1 * (j 2).val = (j 2).val; omega)
  rw [hl, hn]

/-- The two cores' fourth points cover the output array. -/
theorem out_cover (i : S2x1x8.Idx) :
    ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 8 := (i 2).isLt
  refine ⟨lastPt (i 0).val hi0, (flush0_4 _).mpr (by show (4 * (i 0).val + 3) % 4 = 3; omega), ?_⟩
  obtain ⟨e0, e1, e2⟩ := idx_out (lastPt (i 0).val hi0)
  have e0' : win0_4.index (lastPt (i 0).val hi0) (0 : Fin 3) = (i 0).val := by
    rw [e0]; show (4 * (i 0).val + 3) / 4 = (i 0).val; omega
  show i ∈ ((View.whole main_v62).slice (win0_4.rect (lastPt (i 0).val hi0))).set
  rw [View.set_slice_whole, Rect.mem_set_unit]
  intro a
  match a with
  | ⟨0, _⟩ =>
    show win0_4.index (lastPt (i 0).val hi0) (0 : Fin 3) * 1 ≤ (i 0).val
      ∧ (i 0).val < win0_4.index (lastPt (i 0).val hi0) (0 : Fin 3) * 1 + 1
    omega
  | ⟨1, _⟩ =>
    show win0_4.index (lastPt (i 0).val hi0) (1 : Fin 3) * 1 ≤ (i 1).val
      ∧ (i 1).val < win0_4.index (lastPt (i 0).val hi0) (1 : Fin 3) * 1 + 1
    omega
  | ⟨2, _⟩ =>
    show win0_4.index (lastPt (i 0).val hi0) (2 : Fin 3) * 8 ≤ (i 2).val
      ∧ (i 2).val < win0_4.index (lastPt (i 0).val hi0) (2 : Fin 3) * 8 + 8
    omega

/-- So the output array ends holding `outArr`. -/
theorem final_out (c : Dev nD) : (dats m 0 c).arrAt 4 cfg0.N = outArr m c :=
  (dats m 0 c).arrAt_eq_of_cover 4 (outArr m c) (flushed_eq m c) (out_cover)

/-! ## The host's last lines -/

/-- The result: the two cores' rows of the output added up, from zero. -/
def kres (c : Dev nD) : Buf (Elt Ideal) ((c : Thread nD τ).loc main_v64) :=
  Host.reduceAdd (F := Ideal) (φ := .f32) (shapeCast S2x8 (outArr m c) shapeCasts_S2x1x8_S2x8)
    (constant (F := Ideal) S_ .f32 0x00000000#32) reducesTo_S2x8_S8_d0 h_S_

theorem tail_value (c : Dev nD) :
    Pipeline.afterTail₀ cfgs (dats m) 0 (V0 m) [hostOps1] c main_v64 = kres m c := by
  unfold Pipeline.afterTail₀
  show StableHlo.after hostOps1 _ (Proc.devRef .tc main_v64) = _
  after_results
  have hw : Pipeline.withArrays (cfgs 0).spec c (V0 m c) (fun w => (dats m 0 c).arrAt w (cfgs 0).N)
      (Proc.devRef .tc main_v62) = outArr m c :=
    (Pipeline.withArrays_arr spec0 launch0.win.arr_inj c _ _ 4).trans (final_out m c)
  rw [hw]
  rfl

/-! ## The result, molecule by molecule -/

/-- Lane `l` of row `n` of a core's accumulator: the four tiles' contributions to molecule `n` in that lane, added one
    after the other from zero. -/
theorem coreAcc_apply (c : Dev nD) (q : ℕ) (hq : q < 2) (n : Fin 8) (l : Fin 128) :
    coreAcc m c (lastPt q hq) (ix2 n l)
      = (((0 + ∑ r : Fin 5000, ClosePenalty.term (enA m c) (kkA m c) (radA m c) (sodA m c) n
                (ix1 (ClosePenalty.edgeOf (ClosePenalty.tileOf ⟨q, hq⟩ 0) r l)))
            + ∑ r : Fin 5000, ClosePenalty.term (enA m c) (kkA m c) (radA m c) (sodA m c) n
                (ix1 (ClosePenalty.edgeOf (ClosePenalty.tileOf ⟨q, hq⟩ 1) r l)))
          + ∑ r : Fin 5000, ClosePenalty.term (enA m c) (kkA m c) (radA m c) (sodA m c) n
                (ix1 (ClosePenalty.edgeOf (ClosePenalty.tileOf ⟨q, hq⟩ 2) r l)))
        + ∑ r : Fin 5000, ClosePenalty.term (enA m c) (kkA m c) (radA m c) (sodA m c) n
                (ix1 (ClosePenalty.edgeOf (ClosePenalty.tileOf ⟨q, hq⟩ 3) r l)) := by
  have t3 : tile8 (lastPt q hq) = ClosePenalty.tileOf ⟨q, hq⟩ 3 := Fin.ext (by show 4 * q + 3 = 4 * q + 3; rfl)
  have t2 : tile8 (back (lastPt q hq) 1) = ClosePenalty.tileOf ⟨q, hq⟩ 2 :=
    Fin.ext (by show 4 * q + 3 - 1 = 4 * q + 2; omega)
  have t1 : tile8 (back (back (lastPt q hq) 1) 1) = ClosePenalty.tileOf ⟨q, hq⟩ 1 :=
    Fin.ext (by show 4 * q + 3 - 1 - 1 = 4 * q + 1; omega)
  have t0 : tile8 (back (back (back (lastPt q hq) 1) 1) 1) = ClosePenalty.tileOf ⟨q, hq⟩ 0 :=
    Fin.ext (by show 4 * q + 3 - 1 - 1 - 1 = 4 * q + 0; omega)
  unfold coreAcc stepAt accStep
  show (((0 + tileSum (BitVec.ofNat 32 n.val) _ _ l) + tileSum (BitVec.ofNat 32 n.val) _ _ l)
      + tileSum (BitVec.ofNat 32 n.val) _ _ l) + tileSum (BitVec.ofNat 32 n.val) _ _ l = _
  rw [tile_term, tile_term, tile_term, tile_term]
  unfold edgeIx
  rw [t0, t1, t2, t3]

/-- The kernel's result for molecule `i` is that molecule's energy: all of its edges' penalties, each counted once. -/
theorem kres_apply (c : Dev nD) (i : S8.Idx) :
    kres m c i = ClosePenalty.molE (enA m c) (kkA m c) (radA m c) (sodA m c) ⟨(i 0).val, (i 0).isLt⟩ := by
  have hR : S2x8.Reduces [0] S8 := by decide
  unfold kres
  simp only [Host.reduceAdd, Ideal.hostReduceAdd_def]
  rw [Ideal.hostReduceAdd_single reducesTo_S2x8_S8_d0 hR]
  have hz : (constant (F := Ideal) S_ .f32 0x00000000#32) (Shape.Idx.first h_S_) = (0 : EReal) := Ideal.ofBits_zero_f32
  rw [hz, zero_add]
  have hq : ∀ q : Fin 2, shapeCast S2x8 (outArr m c) shapeCasts_S2x1x8_S2x8 (hR.lift i q)
      = ∑ l : Fin 128,
          ((((0 + ∑ r : Fin 5000, ClosePenalty.term (enA m c) (kkA m c) (radA m c) (sodA m c) ⟨(i 0).val, (i 0).isLt⟩
                    (ix1 (ClosePenalty.edgeOf (ClosePenalty.tileOf q 0) r l)))
                + ∑ r : Fin 5000, ClosePenalty.term (enA m c) (kkA m c) (radA m c) (sodA m c) ⟨(i 0).val, (i 0).isLt⟩
                    (ix1 (ClosePenalty.edgeOf (ClosePenalty.tileOf q 1) r l)))
              + ∑ r : Fin 5000, ClosePenalty.term (enA m c) (kkA m c) (radA m c) (sodA m c) ⟨(i 0).val, (i 0).isLt⟩
                    (ix1 (ClosePenalty.edgeOf (ClosePenalty.tileOf q 2) r l)))
            + ∑ r : Fin 5000, ClosePenalty.term (enA m c) (kkA m c) (radA m c) (sodA m c) ⟨(i 0).val, (i 0).isLt⟩
                    (ix1 (ClosePenalty.edgeOf (ClosePenalty.tileOf q 3) r l))) := by
    intro q
    have hj : (hR.lift i q : S2x8.Idx) = ix2 q (⟨(i 0).val, (i 0).isLt⟩ : Fin 8) :=
      funext fun a => Fin.ext (by match a with | ⟨0, _⟩ => rfl | ⟨1, _⟩ => rfl)
    rw [hj]
    refine (shapeCast_apply (outArr m c) shapeCasts_S2x1x8_S2x8 _
      (ix3 q (0 : Fin 1) (⟨(i 0).val, (i 0).isLt⟩ : Fin 8)) ?_).trans ?_
    · rw [Shape.rowMajor_val_three, Shape.rowMajor_val_two]
      show (q.val * 1 + 0) * 8 + (i 0).val = q.val * 8 + (i 0).val
      omega
    · show ∑ l : Fin 128, coreAcc m c (lastPt q.val q.isLt) (ix2 (⟨(i 0).val, (i 0).isLt⟩ : Fin 8) l) = _
      exact Finset.sum_congr rfl fun l _ => coreAcc_apply m c q.val q.isLt _ l
  show ∑ q : Fin 2, shapeCast S2x8 (outArr m c) shapeCasts_S2x1x8_S2x8 (hR.lift i q) = _
  rw [Finset.sum_congr rfl fun q _ => hq q]
  rw [ClosePenalty.sum_tiles (fun e => ClosePenalty.term (enA m c) (kkA m c) (radA m c) (sodA m c)
    ⟨(i 0).val, (i 0).isLt⟩ (ix1 e))]
  unfold ClosePenalty.molE
  exact Equiv.sum_comp (idxEquiv1 (n := 5120000)).symm
    (ClosePenalty.term (enA m c) (kkA m c) (radA m c) (sodA m c) ⟨(i 0).val, (i 0).isLt⟩)

/-! ## The run -/

/-- Every execution of the kernel's program ends with the result buffer at `kres` and the arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v64) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v64 (Pipeline.mem_restRefs_of main_v64 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end ClosePenalty.Run

end
-- ==== Proof.RefValue.lean ====
import proofs.«426004_j59304908423819_3_alg».proof.Proof.Gen.ReferenceIdeal.Read
import proofs.«426004_j59304908423819_3_alg».proof.Proof.Spec

/-!
The reference's result read as the molecule energies: the scatter-add into `molecule · 10000 + atom` buckets followed by the
sum over a molecule's atoms collects exactly the edges whose molecule word is that molecule, when every molecule word
lies in [0, 8) and every atom word in [0, 10000).
-/

noncomputable section

namespace ClosePenalty.Ref

open Idealize.ShloMosaic Idealize.ShloMosaic.ValueIdx Cert.ReferenceIdeal Cert.ReferenceIdeal.Read

/-- The accumulating scatter read at one element: the operand there plus the sum of the updates that land on it. -/
theorem scatterAdd_apply {s si su : Shape} (d : ScatterDims s si su) {w : Nat} (x : s.Idx → EReal) (idx : IVec si w)
    (upd : su.Idx → EReal) (q : s.Idx) :
    Ideal.hostScatterAdd d x idx upd q
      = x q + ∑ j ∈ Finset.univ.filter (fun j => d.resultIdx? j idx = some q), upd j := rfl

section Landing
variable [Cert.ReferenceIdeal.Facts₀]

/-- The start of update `j`'s window on the operand's one axis is the flat word in row `j` of the index column, read signed. -/
theorem start_eq {w : Nat} (j : S5120000.Idx) (idx : IVec S5120000x1 w) (a : Fin S80000.rank) :
    scatter_S80000_S5120000x1_S5120000_n_0_0_1.start j idx a = (idx (ix2 (j 0) 0)).toInt := by
  obtain rfl : a = 0 := Subsingleton.elim _ _
  unfold ScatterDims.start
  rw [dif_pos (show (0 : Fin 1) ∈ scatter_S80000_S5120000x1_S5120000_n_0_0_1.scatterDimsToOperandDims from
    List.mem_singleton.mpr rfl)]
  refine congrArg (fun q => (idx q).toInt) ?_
  funext b
  refine Fin.ext ?_
  match b with
  | ⟨0, _⟩ => rfl
  | ⟨1, _⟩ => rfl

/-- The operand's one axis is an inserted one: no window coordinate is added on it. -/
theorem window_eq (j : S5120000.Idx) (a : Fin S80000.rank) :
    scatter_S80000_S5120000x1_S5120000_n_0_0_1.window j a = 0 := by
  obtain rfl : a = 0 := Subsingleton.elim _ _
  unfold ScatterDims.window
  have hne : (0 : Fin S80000.rank) ∉ scatter_S80000_S5120000x1_S5120000_n_0_0_1.sKept := by
    intro h
    have h2 : decide ((0 : Fin 1) ∉ ([0] : List (Fin 1))) = true := (List.mem_filter.1 h).2
    exact absurd h2 (by decide)
  rw [dif_neg hne]

/-- Update `j` lands on bucket `q` exactly when the flat word in row `j`, read signed, is `q`'s coordinate. -/
theorem lands_iff {w : Nat} (j : S5120000.Idx) (idx : IVec S5120000x1 w) (q : S80000.Idx) :
    scatter_S80000_S5120000x1_S5120000_n_0_0_1.resultIdx? j idx = some q
      ↔ (idx (ix2 (j 0) 0)).toInt = ((q 0).val : Int) := by
  have hq : (q 0).val < 80000 := (q 0).isLt
  unfold ScatterDims.resultIdx?
  split
  · rename_i h
    have h0 := h 0
    rw [start_eq, window_eq] at h0
    constructor
    · intro e
      have e0 := congrArg (fun f : S80000.Idx => (f 0).val) (Option.some.inj e)
      simp only [start_eq, window_eq] at e0
      omega
    · intro e
      refine congrArg some (funext fun a => ?_)
      obtain rfl : a = 0 := Subsingleton.elim _ _
      refine Fin.ext ?_
      show (scatter_S80000_S5120000x1_S5120000_n_0_0_1.start j idx 0
        + (scatter_S80000_S5120000x1_S5120000_n_0_0_1.window j 0 : Nat)).toNat = (q 0).val
      rw [start_eq, window_eq]
      omega
  · rename_i h
    constructor
    · intro e; cases e
    · intro e
      refine absurd (fun a => ?_) h
      obtain rfl : a = 0 := Subsingleton.elim _ _
      rw [start_eq, window_eq]
      show 0 ≤ _ + ((0 : Nat) : Int) ∧ _ + ((0 : Nat) : Int) < ((80000 : Nat) : Int)
      omega

end Landing

section Words

/-- No wrap-around: for a molecule word `a` in [0, 8) and an atom word `b` in [0, 10000) the flat word
    `a · 10000 + b` reads, signed, as that integer. -/
theorem flat_toInt (a b : BitVec 32) (ha : 0 ≤ a.toInt ∧ a.toInt < 8) (hb : 0 ≤ b.toInt ∧ b.toInt < 10000) :
    (IntOp.addi (IntOp.muli a 10000#32) b).toInt = a.toInt * 10000 + b.toInt := by
  have h10 : (10000#32 : BitVec 32).toInt = 10000 := by decide
  unfold IntOp.addi IntOp.muli
  rw [BitVec.toInt_add, BitVec.toInt_mul, h10,
    Int.bmod_eq_of_le_mul_two (x := a.toInt * 10000) (by omega) (by omega),
    Int.bmod_eq_of_le_mul_two (by omega) (by omega)]

/-- A word in [0, 8) is the word of `n < 8` exactly when it reads, signed, as `n`. -/
theorem word_eq_iff (a : BitVec 32) (n : Nat) (hn : n < 8) :
    a = BitVec.ofNat 32 n ↔ a.toInt = (n : Int) := by
  have hN : (BitVec.ofNat 32 n).toInt = (n : Int) := by
    rw [BitVec.toInt_ofNat', Int.bmod_eq_of_le_mul_two (by omega) (by omega)]
  constructor
  · intro h; rw [h, hN]
  · intro h; exact BitVec.eq_of_toInt_eq (h.trans hN.symm)

end Words

section Buckets
variable [Cert.ReferenceIdeal.Facts]

/-- The scatter-add read at the bucket `q` of coordinate `m`: the sum over all edges of the edge's update where its
    molecule and atom words name `m`, and zero elsewhere. -/
theorem bucket_apply (x0 : (⟨S8x10000, .i32⟩ : BufTy).Contents (Elt Ideal))
    (x1 x2 x3 : (⟨S5120000, .i32⟩ : BufTy).Contents (Elt Ideal)) (x4 : (⟨S5120000, .f32⟩ : BufTy).Contents (Elt Ideal))
    (x5 x6 : (⟨S100, .f32⟩ : BufTy).Contents (Elt Ideal))
    (hn : ∀ e, 0 ≤ (x1 e).toInt ∧ (x1 e).toInt < 8) (hi : ∀ e, 0 ≤ (x2 e).toInt ∧ (x2 e).toInt < 10000)
    (q : S80000.Idx) (m : Nat) (hm : (q 0).val = m) :
    val_main_v69 (F := Ideal) x0 x1 x2 x3 x4 x5 x6 q
      = ∑ e : S5120000.Idx, if (x1 e).toInt * 10000 + (x2 e).toInt = (m : Int)
          then val_main_v63 (F := Ideal) x0 x1 x2 x3 x4 x5 x6 e else 0 := by
  unfold val_main_v69
  rw [Host.scatterAdd, Ideal.hostScatterAdd_def, scatterAdd_apply, val_main_v67_apply, val_main_cst_16_apply, Ideal.ofBits_def, Ideal.ofBits_zero_f32, zero_add,
    Finset.sum_filter]
  refine Finset.sum_congr rfl fun e _ => ?_
  have he : idx_main_v68 (ix2 (e 0) 0) = e := by
    funext a
    match a with
    | ⟨0, _⟩ => rfl
  have hw : (val_main_v68 (F := Ideal) x1 x2 (ix2 (e 0) 0)).toInt = (x1 e).toInt * 10000 + (x2 e).toInt := by
    rw [val_main_v68_apply, he, val_main_v66_apply, val_main_v65_apply, val_main_v64_apply, val_main_c_15_apply]
    exact flat_toInt _ _ (hn e) (hi e)
  have hl := lands_iff e (val_main_v68 (F := Ideal) x1 x2) q
  rw [hw, hm] at hl
  exact if_congr hl rfl rfl

end Buckets

theorem ref_value [Cert.ReferenceIdeal.Facts] (x0 : (⟨S8x10000, .i32⟩ : BufTy).Contents (Elt Ideal))
    (x1 x2 x3 : (⟨S5120000, .i32⟩ : BufTy).Contents (Elt Ideal)) (x4 : (⟨S5120000, .f32⟩ : BufTy).Contents (Elt Ideal))
    (x5 x6 : (⟨S100, .f32⟩ : BufTy).Contents (Elt Ideal))
    (hn : ∀ e, 0 ≤ (x1 e).toInt ∧ (x1 e).toInt < 8) (hi : ∀ e, 0 ≤ (x2 e).toInt ∧ (x2 e).toInt < 10000) (i : S8.Idx) :
    val_main_v71 (F := Ideal) x0 x1 x2 x3 x4 x5 x6 i
      = ClosePenalty.molE x1 (val_main_v43 (F := Ideal) x0 x1 x2 x3 x5) (val_main_v58 (F := Ideal) x0 x1 x2 x3 x6) x4
          ⟨(i 0).val, (i 0).isLt⟩ := by
  have hi0 : (i 0).val < 8 := (i 0).isLt
  rw [val_main_v71_apply, val_main_cst_17_apply, Ideal.ofBits_def, Ideal.ofBits_zero_f32, zero_add]
  -- each atom bucket of molecule `i`, read through the reshape, as a sum over all edges
  have hk : ∀ k : Fin 10000, val_main_v70 (F := Ideal) x0 x1 x2 x3 x4 x5 x6 (idx_main_v71 i k)
      = ∑ e : S5120000.Idx, if (x1 e).toInt * 10000 + (x2 e).toInt = (((i 0).val * 10000 + k.val : Nat) : Int)
          then val_main_v63 (F := Ideal) x0 x1 x2 x3 x4 x5 x6 e else 0 := by
    intro k
    rw [val_main_v70_apply]
    exact bucket_apply x0 x1 x2 x3 x4 x5 x6 hn hi (idx_main_v70 (idx_main_v71 i k)) _ rfl
  refine (Finset.sum_congr rfl fun k _ => hk k).trans ?_
  rw [Finset.sum_comm]
  unfold ClosePenalty.molE
  refine Finset.sum_congr rfl fun e _ => ?_
  unfold ClosePenalty.term
  -- the edge's update is its penalty
  have hupd : val_main_v63 (F := Ideal) x0 x1 x2 x3 x4 x5 x6 e
      = ClosePenalty.pen (val_main_v43 (F := Ideal) x0 x1 x2 x3 x5 e) (val_main_v58 (F := Ideal) x0 x1 x2 x3 x6 e) (x4 e) := by
    unfold ClosePenalty.pen
    rw [val_main_v63_apply, val_main_v59_apply, val_main_v62_apply, val_main_v61_apply, val_main_v60_apply,
      val_main_v28_apply, val_main_call0_v0_apply, val_main_cst_apply, Ideal.ofBits_def, Ideal.ofBits_zero_f32,
      Ideal.hostUnary_sqrt_def]
  rw [hupd]
  have h1 := hn e
  have h2 := hi e
  by_cases hm : x1 e = BitVec.ofNat 32 (i 0).val
  · -- the edge is in molecule `i`: exactly one atom bucket of the molecule holds it
    rw [if_pos hm]
    have hm' := (word_eq_iff _ _ hi0).1 hm
    rw [Finset.sum_eq_single (⟨(x2 e).toInt.toNat, by omega⟩ : Fin 10000)]
    · rw [if_pos]
      show (x1 e).toInt * 10000 + (x2 e).toInt = (((i 0).val * 10000 + (x2 e).toInt.toNat : Nat) : Int)
      omega
    · intro k _ hk'
      rw [if_neg]
      intro hc
      refine hk' (Fin.ext ?_)
      show k.val = (x2 e).toInt.toNat
      omega
    · intro h
      exact absurd (Finset.mem_univ _) h
  · -- the edge is in another molecule: none of this molecule's buckets holds it
    rw [if_neg hm]
    have hm' : (x1 e).toInt ≠ ((i 0).val : Int) := fun h => hm ((word_eq_iff _ _ hi0).2 h)
    refine Finset.sum_eq_zero fun k _ => ?_
    rw [if_neg]
    have := k.isLt
    omega

end ClosePenalty.Ref

end
-- ==== Proof.PreRanges.lean ====
import proofs.«426004_j59304908423819_3_alg».proof.Pre_finite_inputs
import Idealize.ShloMosaic.PureOps.Ideal
import Idealize.ShloMosaic.Lib.ReduceAll
import Idealize.ShloMosaic.Lib.StableHlo.Predicate

/-!
What the precondition says of the two index inputs: every molecule word lies in [0, 8) and every atom word in
[0, 10000), read as signed integers.
-/

noncomputable section

namespace ClosePenalty.Pre

open Idealize.ShloMosaic Cert.Pre_finite_inputs

/-- The scalar shape has exactly one index (the empty tuple of coordinates). -/
local instance : Subsingleton S_.Idx := ⟨fun a b => funext fun d => d.elim0⟩

/-- A word whose two signed compare bits against the constants `lo` and `hi` (`lo ≤ w` and `w < hi`) are both set has
    its signed value in the half-open interval between the signed values of the constants. -/
theorem word_range {w lo hi : BitVec 32} {l u : Int} (hl : lo.toInt = l) (hu : hi.toInt = u)
    (h : IntOp.andi (IntOp.cmpi .sge w lo) (IntOp.cmpi .slt w hi) = 1#1) : l ≤ w.toInt ∧ w.toInt < u := by
  obtain ⟨h1, h2⟩ := IntOp.andi_eq_one.1 h
  exact ⟨hl ▸ IntOp.cmpi_sge.1 h1, hu ▸ IntOp.cmpi_slt.1 h2⟩

theorem ranges_of_pre [Cert.Pre_finite_inputs.Facts] (a0 : IVec S8x10000 32) (a1 a2 a3 : IVec S5120000 32)
    (a4 : FVec Ideal S5120000 .f32) (a5 a6 : FVec Ideal S100 .f32)
    (h : Cert.Pre_finite_inputs.fn (F := Ideal) a0 a1 a2 a3 a4 a5 a6 = fun _ => 1#1) :
    (∀ e, 0 ≤ (a1 e).toInt ∧ (a1 e).toInt < 8) ∧ (∀ e, 0 ≤ (a2 e).toInt ∧ (a2 e).toInt < 10000) := by
  -- the predicate's one result bit is set
  have h0 := congrFun h (fun d => d.elim0)
  unfold Cert.Pre_finite_inputs.fn Cert.Pre_finite_inputs.fn_part1 at h0
  dsimp only at h0
  -- that bit is the conjunction of five bits, nested to the left: three finiteness bits, then the conjunction over all
  -- edges of the molecule word's two compare bits, then the same for the atom word
  simp only [andi, IntOp.andi_eq_one] at h0
  obtain ⟨⟨-, h1⟩, h2⟩ := h0
  -- a conjunction over all edges that is set has its bit set at every edge e; at e the two compared constants are the
  -- scalar constants themselves, a scalar laid out along the edges reading the same everywhere
  refine ⟨fun e => ?_, fun e => ?_⟩
  · have hb : IntOp.andi (IntOp.cmpi .sge (a1 e) 0#32) (IntOp.cmpi .slt (a1 e) 8#32) = 1#1 :=
      Host.reduce_andi_all _ _ _ _ _ h1 e
    exact word_range (by decide) (by decide) hb
  · have hb : IntOp.andi (IntOp.cmpi .sge (a2 e) 0#32) (IntOp.cmpi .slt (a2 e) 10000#32) = 1#1 :=
      Host.reduce_andi_all _ _ _ _ _ h2 e
    exact word_range (by decide) (by decide) hb

end ClosePenalty.Pre

end
-- ==== Proof.Bridge.lean ====
import proofs.«426004_j59304908423819_3_alg».proof.Defs
import proofs.«426004_j59304908423819_3_alg».proof.Proof.Gen.ReferenceIdeal.Run
import proofs.«426004_j59304908423819_3_alg».proof.Proof.Gen.ReferenceIdeal.Read
import proofs.«426004_j59304908423819_3_alg».proof.Proof.Gen.Pre_finite_inputs
import proofs.«426004_j59304908423819_3_alg».proof.Proof.KernelRun
import proofs.«426004_j59304908423819_3_alg».proof.Proof.RefValue
import proofs.«426004_j59304908423819_3_alg».proof.Proof.PreRanges

/-!
The two programs meet.  Both gather each edge's force constant and contact radius from the element tables by the same
host operations on the same arguments, so those per-edge arrays are one term; the kernel's result and the reference's
result are then the same molecule energies of the same arrays.  The reference's scatter into (molecule, atom) buckets
needs every molecule word in [0, 8) and every atom word in [0, 10000), which the precondition says.
-/

set_option maxRecDepth 16384

noncomputable section

namespace ClosePenalty.Bridge

open Idealize.ShloMosaic Idealize.ShloMosaic.TcCoe Idealize.SL.Sem

section Kernel

open Cert.KernelIdeal Cert.KernelIdeal.Gen ClosePenalty.Run

variable (m : (ℓ : Loc nD τ sig) → Buf (Elt Ideal) ℓ)

open Idealize.ShloMosaic.StableHlo in
set_option maxHeartbeats 4000000 in
/-- The kernel's per-edge force constants are the reference's, as terms of the arguments. -/
theorem kk_ref (c : Dev nD) : kkA m c
    = Cert.ReferenceIdeal.Read.val_main_v43 (F := Ideal) (m ((c : Thread nD τ).loc main_arg0)) (m ((c : Thread nD τ).loc main_arg1))
        (m ((c : Thread nD τ).loc main_arg2)) (m ((c : Thread nD τ).loc main_arg3)) (m ((c : Thread nD τ).loc main_arg5)) := by
  show StableHlo.after hostOps0 (fun b => m (c, b)) (Proc.devRef .tc main_v42) = _
  after_results_simp
  rfl

open Idealize.ShloMosaic.StableHlo in
set_option maxHeartbeats 4000000 in
/-- Likewise the per-edge contact radii. -/
theorem rad_ref (c : Dev nD) : radA m c
    = Cert.ReferenceIdeal.Read.val_main_v58 (F := Ideal) (m ((c : Thread nD τ).loc main_arg0)) (m ((c : Thread nD τ).loc main_arg1))
        (m ((c : Thread nD τ).loc main_arg2)) (m ((c : Thread nD τ).loc main_arg3)) (m ((c : Thread nD τ).loc main_arg6)) := by
  show StableHlo.after hostOps0 (fun b => m (c, b)) (Proc.devRef .tc main_v58) = _
  after_results_simp
  rfl

end Kernel

/-- From memories agreeing on the arguments, under the precondition, the two programs end with equal results. -/
theorem algebraic : Cert.algebraic_KernelIdeal_ReferenceIdeal := by
  intro m ρ m' ρ' hpre hagree
  refine ⟨fun c => ClosePenalty.Run.kres m c, ClosePenalty.Run.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨hn, hi⟩ := ClosePenalty.Pre.ranges_of_pre _ _ _ _ _ _ _ (hpre c)
  rw [Cert.ReferenceIdeal.Read.val_main_v71_eq, a0, a1, a2, a3, a4, a5, a6]
  funext i
  rw [ClosePenalty.Ref.ref_value _ _ _ _ _ _ _ hn hi i]
  refine Eq.trans ?_ (ClosePenalty.Run.kres_apply m c i).symm
  rw [kk_ref m c, rad_ref m c]
  unfold ClosePenalty.Run.enA ClosePenalty.Run.sodA
  rw [Cert.KernelIdeal.Gen.V_main_arg1, Cert.KernelIdeal.Gen.V_main_arg4]

end ClosePenalty.Bridge

end
-- ==== Proof.lean ====
/- The kernel sums, per molecule, the close-contact penalties of the molecule's edges tile by tile on two cores; the
   reference scatters the same penalties into (molecule, atom) buckets and sums each molecule's buckets.  The three frames
   are the generated ones (the reference's is its run with the result dropped), the idealization rewrote nothing, and the
   two results are the same molecule energies (Proof/Bridge.lean). -/
import proofs.«426004_j59304908423819_3_alg».proof.Defs
import proofs.«426004_j59304908423819_3_alg».proof.Proof.Gen.Kernel
import proofs.«426004_j59304908423819_3_alg».proof.Proof.Gen.Kernel.Skeleton
import proofs.«426004_j59304908423819_3_alg».proof.Proof.Gen.Kernel.Launch
import proofs.«426004_j59304908423819_3_alg».proof.Proof.Gen.Kernel.Points
import proofs.«426004_j59304908423819_3_alg».proof.Proof.Gen.Kernel.Frame
import proofs.«426004_j59304908423819_3_alg».proof.Proof.Gen.KernelIdeal
import proofs.«426004_j59304908423819_3_alg».proof.Proof.Gen.KernelIdeal.Skeleton
import proofs.«426004_j59304908423819_3_alg».proof.Proof.Gen.KernelIdeal.Launch
import proofs.«426004_j59304908423819_3_alg».proof.Proof.Gen.KernelIdeal.Points
import proofs.«426004_j59304908423819_3_alg».proof.Proof.Gen.KernelIdeal.Frame
import proofs.«426004_j59304908423819_3_alg».proof.Proof.Gen.ReferenceIdeal
import proofs.«426004_j59304908423819_3_alg».proof.Proof.Gen.ReferenceIdeal.Run
import proofs.«426004_j59304908423819_3_alg».proof.Proof.Gen.ReferenceIdeal.Read
import proofs.«426004_j59304908423819_3_alg».proof.Proof.Gen.Pre_finite_inputs
import proofs.«426004_j59304908423819_3_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    ClosePenalty.Bridge.algebraic⟩

end Cert.Proof

end
